-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S512x64 : Shape := ⟨2, ![512, 64]⟩
abbrev S100000 : Shape := ⟨1, ![100000]⟩
abbrev S224x256 : Shape := ⟨2, ![224, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S512x64 : S_.BroadcastsInDim S512x64 (![] : Fin 0 → Fin S512x64.rank)
  reducesTo_S512x64_S_d0_1 : S512x64.ReducesTo [0, 1] S_
  bcast_S_S224x256 : S_.BroadcastsInDim S224x256 (![] : Fin 0 → Fin S224x256.rank)
  reducesTo_S224x256_S_d0_1 : S224x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_v43 : IVec S_ 1) (main_v47 : IVec S1600000 1) (main_v51 : IVec S1600000 1) : IVec S_ 1 :=
  let main_v52 : IVec S1600000 1 := andi main_v47 main_v51
  let main_c_18 : IVec S_ 1 := constantI S_ 1 1#1
  let main_v53 : IVec S_ 1 := (fun x v => Host.reduce IntOp.andi x v reducesTo_S1600000_S_d0 h_S_) main_v52 main_c_18
  let main_v54 : IVec S_ 1 := andi main_v43 main_v53
  main_v54

def fn_part2 {F : FTy → Type} [FloatOps F] (main_arg1 : IVec S2x1600000 32) (main_arg9 : FVec F S256x64 .f32) (main_arg10 : FVec F S64 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : IVec S1x1600000 32 := (extractStridedSlice S1x1600000 ![0, 0] · slices_S2x1600000_S1x1600000_0_0) main_arg1
  let main_v45 : IVec S1600000 32 := shapeCast S1600000 main_v44 shapeCasts_S1x1600000_S1600000
  let main_c_16 : IVec S_ 32 := constantI S_ 32 4294867296#32
  let main_v46 : IVec S1600000 32 := broadcastInDim S1600000 ![] bcast_S_S1600000 main_c_16
  let main_v47 : IVec S1600000 1 := cmpi .sge main_v45 main_v46
  let main_v48 : IVec S1x1600000 32 := (extractStridedSlice S1x1600000 ![0, 0] · slices_S2x1600000_S1x1600000_0_0) main_arg1
  let main_v49 : IVec S1600000 32 := shapeCast S1600000 main_v48 shapeCasts_S1x1600000_S1600000
  let main_c_17 : IVec S_ 32 := constantI S_ 32 100000#32
  let main_v50 : IVec S1600000 32 := broadcastInDim S1600000 ![] bcast_S_S1600000 main_c_17
  let main_v51 : IVec S1600000 1 := cmpi .slt main_v49 main_v50
  fn_part3 (F := F) main_v43 main_v47 main_v51

def fn_part1 {F : FTy → Type} [FloatOps F] (main_arg1 : IVec S2x1600000 32) (main_arg6 : FVec F S256 .f32) (main_arg7 : FVec F S256x256 .f32) (main_arg8 : FVec F S256 .f32) (main_arg9 : FVec F S256x64 .f32) (main_arg10 : FVec F S64 .f32) (main_v13 : IVec S_ 1) (main_v16 : IVec S224x256 1) : IVec S_ 1 :=
  let main_c_5 : IVec S_ 1 := constantI S_ 1 1#1
  let main_v17 : IVec S_ 1 := (fun x v => Host.reduce IntOp.andi x v reducesTo_S224x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x1600000 32) (main_arg2 : FVec F S1600000x32 .f32) (main_arg3 : FVec F S512x64 .f32) (main_arg4 : IVec S100000 32) (main_arg5 : FVec F S224x256 .f32) (main_arg6 : FVec F S256 .f32) (main_arg7 : FVec F S256x256 .f32) (main_arg8 : FVec F S256 .f32) (main_arg9 : FVec F S256x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S224x256 .f32 := Host.absf main_arg5
  let main_cst_4 : FVec F S_ .f32 := constant S_ .f32 0x7F800000#32
  let main_v15 : FVec F S224x256 .f32 := broadcastInDim S224x256 ![] bcast_S_S224x256 main_cst_4
  let main_v16 : IVec S224x256 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S512x64 : Shape := ⟨2, ![512, 64]⟩
abbrev S100000 : Shape := ⟨1, ![100000]⟩
abbrev S224x256 : Shape := ⟨2, ![224, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S102400x128 : Shape := ⟨2, ![102400, 128]⟩
abbrev S102400 : Shape := ⟨1, ![102400]⟩
abbrev S512x128 : Shape := ⟨2, ![512, 128]⟩
abbrev S512 : Shape := ⟨1, ![512]⟩
abbrev S4096x128 : Shape := ⟨2, ![4096, 128]⟩
abbrev S4096 : Shape := ⟨1, ![4096]⟩
abbrev S512x1 : Shape := ⟨2, ![512, 1]⟩
abbrev S1x4096 : Shape := ⟨2, ![1, 4096]⟩
abbrev S512x4096 : Shape := ⟨2, ![512, 4096]⟩
abbrev S1601536x32 : Shape := ⟨2, ![1601536, 32]⟩
abbrev S1601536 : Shape := ⟨1, ![1601536]⟩
abbrev S512x32 : Shape := ⟨2, ![512, 32]⟩
abbrev S4096x32 : Shape := ⟨2, ![4096, 32]⟩
abbrev S128x256 : Shape := ⟨2, ![128, 256]⟩
abbrev S32x256 : Shape := ⟨2, ![32, 256]⟩
abbrev S64x256 : Shape := ⟨2, ![64, 256]⟩
abbrev S512x256 : Shape := ⟨2, ![512, 256]⟩
abbrev S1x256 : Shape := ⟨2, ![1, 256]⟩
abbrev S1x64 : Shape := ⟨2, ![1, 64]⟩

abbrev nBuf : Space → Nat
  | .hbm => 67
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S512x64, .f32⟩
  | .hbm, ⟨4, _⟩ => ⟨S100000, .i32⟩
  | .hbm, ⟨5, _⟩ => ⟨S224x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S_, .i32⟩
  | .hbm, ⟨36, _⟩ => ⟨S_, .f32⟩
  | .hbm, ⟨37, _⟩ => ⟨S102400x128, .f32⟩
  | .hbm, ⟨38, _⟩ => ⟨S_, .i32⟩
  | .hbm, ⟨39, _⟩ => ⟨S_, .i32⟩
  | .hbm, ⟨40, _⟩ => ⟨S102400, .i32⟩
  | .hbm, ⟨41, _⟩ => ⟨S512x128, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S512x1, .f32⟩
  | .hbm, ⟨47, _⟩ => ⟨S512x128, .f32⟩
  | .hbm, ⟨48, _⟩ => ⟨S512x128, .f32⟩
  | .hbm, ⟨49, _⟩ => ⟨S_, .i32⟩
  | .hbm, ⟨50, _⟩ => ⟨S_, .f32⟩
  | .hbm, ⟨51, _⟩ => ⟨S1601536x32, .f32⟩
  | .hbm, ⟨52, _⟩ => ⟨S_, .i32⟩
  | .hbm, ⟨53, _⟩ => ⟨S_, .i32⟩
  | .hbm, ⟨54, _⟩ => ⟨S1601536, .i32⟩
  | .hbm, ⟨55, _⟩ => ⟨S512x32, .f32⟩
  | .hbm, ⟨56, _⟩ => ⟨S512, .f32⟩
  | .hbm, ⟨57, _⟩ => ⟨S_, .f32⟩
  | .hbm, ⟨58, _⟩ => ⟨S512, .f32⟩
  | .hbm, ⟨59, _⟩ => ⟨S512, .f32⟩
  | .hbm, ⟨60, _⟩ => ⟨S512x1, .f32⟩
  | .hbm, ⟨61, _⟩ => ⟨S512x32, .f32⟩
  | .hbm, ⟨62, _⟩ => ⟨S512x32, .f32⟩
  | .hbm, ⟨63, _⟩ => ⟨S128x256, .f32⟩
  | .hbm, ⟨64, _⟩ => ⟨S32x256, .f32⟩
  | .hbm, ⟨65, _⟩ => ⟨S64x256, .f32⟩
  | .hbm, ⟨66, _⟩ => ⟨S512x64, .f32⟩
  | .local _ .vmem, ⟨0, _⟩ => ⟨S4096x128, .f32⟩
  | .local _ .vmem, ⟨1, _⟩ => ⟨S4096x128, .f32⟩
  | .local _ .vmem, ⟨2, _⟩ => ⟨S4096, .i32⟩
  | .local _ .vmem, ⟨3, _⟩ => ⟨S4096, .i32⟩
  | .local _ .vmem, ⟨4, _⟩ => ⟨S512x128, .f32⟩
  | .local _ .vmem, ⟨5, _⟩ => ⟨S512, .f32⟩
  | .local _ .vmem, ⟨6, _⟩ => ⟨S4096x32, .f32⟩
  | .local _ .vmem, ⟨7, _⟩ => ⟨S4096x32, .f32⟩
  | .local _ .vmem, ⟨8, _⟩ => ⟨S4096, .i32⟩
  | .local _ .vmem, ⟨9, _⟩ => ⟨S4096, .i32⟩
  | .local _ .vmem, ⟨10, _⟩ => ⟨S512x32, .f32⟩
  | .local _ .vmem, ⟨11, _⟩ => ⟨S512, .f32⟩
  | .local _ .vmem, ⟨12, _⟩ => ⟨S512x128, .f32⟩
  | .local _ .vmem, ⟨13, _⟩ => ⟨S512x32, .f32⟩
  | .local _ .vmem, ⟨14, _⟩ => ⟨S512x64, .f32⟩
  | .local _ .vmem, ⟨15, _⟩ => ⟨S128x256, .f32⟩
  | .local _ .vmem, ⟨16, _⟩ => ⟨S32x256, .f32⟩
  | .local _ .vmem, ⟨17, _⟩ => ⟨S64x256, .f32⟩
  | .local _ .vmem, ⟨18, _⟩ => ⟨S256, .f32⟩
  | .local _ .vmem, ⟨19, _⟩ => ⟨S256x256, .f32⟩
  | .local _ .vmem, ⟨20, _⟩ => ⟨S256, .f32⟩
  | .local _ .vmem, ⟨21, _⟩ => ⟨S256x64, .f32⟩
  | .local _ .vmem, ⟨22, _⟩ => ⟨S64, .f32⟩
  | .local _ .vmem, ⟨23, _⟩ => ⟨S512x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_c_4 : Ref sig .tc := ⟨.hbm, 32, rfl⟩
abbrev main_call0_v14 : Ref sig .tc := ⟨.hbm, 33, rfl⟩
abbrev main_v2 : Ref sig .tc := ⟨.hbm, 34, rfl⟩
abbrev main_c : Ref sig .tc := ⟨.hbm, 35, rfl⟩
abbrev main_call1_v0 : Ref sig .tc := ⟨.hbm, 36, rfl⟩
abbrev main_v3 : Ref sig .tc := ⟨.hbm, 37, rfl⟩
abbrev main_c_0 : Ref sig .tc := ⟨.hbm, 38, rfl⟩
abbrev main_call2_v0 : Ref sig .tc := ⟨.hbm, 39, rfl⟩
abbrev main_v4 : Ref sig .tc := ⟨.hbm, 40, rfl⟩
abbrev main_v5_0 : Ref sig .tc := ⟨.hbm, 41, rfl⟩
abbrev main_v5_1 : Ref sig .tc := ⟨.hbm, 42, rfl⟩
abbrev main_cst : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c_1 : Ref sig .tc := ⟨.hbm, 49, rfl⟩
abbrev main_call3_v0 : Ref sig .tc := ⟨.hbm, 50, rfl⟩
abbrev main_v11 : Ref sig .tc := ⟨.hbm, 51, rfl⟩
abbrev main_c_2 : Ref sig .tc := ⟨.hbm, 52, rfl⟩
abbrev main_call4_v0 : Ref sig .tc := ⟨.hbm, 53, rfl⟩
abbrev main_v12 : Ref sig .tc := ⟨.hbm, 54, rfl⟩
abbrev main_v13_0 : Ref sig .tc := ⟨.hbm, 55, rfl⟩
abbrev main_v13_1 : Ref sig .tc := ⟨.hbm, 56, rfl⟩
abbrev main_cst_3 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg11_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev cc2_sem10_0 : DmaSem sig := 22
abbrev cc2_sem11_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![391], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S512x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  pads_S100000x128_S102400x128_024000_000 : S100000x128.Pads (![0, 0] : Fin 2 → Nat) ![2400, 0] ![0, 0] S102400x128
  pads_S100000_S102400_024000 : S100000.Pads (![0] : Fin 1 → Nat) ![2400] ![0] S102400
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  iota_S512x1_d0_w32 : S512x1.Iotas .tc 32 [0]
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S512x1_S512x4096 : S512x1.Broadcasts S512x4096
  broadcasts_S1x4096_S512x4096 : S1x4096.Broadcasts S512x4096
  natLt_1_32 : 1 < 32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  shapeCasts_S512x128_S512x128 : S512x128.ShapeCasts S512x128
  shapeCasts_S512_S512 : S512.ShapeCasts S512
  reduces_S512x4096_S512 : S512x4096.Reduces [1] S512
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  pads_S1600000x32_S1601536x32_015360_000 : S1600000x32.Pads (![0, 0] : Fin 2 → Nat) ![1536, 0] ![0, 0] S1601536x32
  pads_S1600000_S1601536_015360 : S1600000.Pads (![0] : Fin 1 → Nat) ![1536] ![0] S1601536
  inb_S512x32_S512x32_0_0 : ∀ a, (![0, 0] : Fin 2 → Nat) a + S512x32.size a ≤ S512x32.size a
  h_S512x32 : 0 < S512x32.numel
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  shapeCasts_S512x32_S512x32 : S512x32.ShapeCasts S512x32
  bcast_S512x1_S512x32_0_1 : S512x1.BroadcastsInDim S512x32 (![0, 1] : Fin 2 → Fin S512x32.rank)
  slices_S224x256_S128x256_0_0 : S224x256.Slices ![0, 0] S128x256
  slices_S224x256_S32x256_128_0 : S224x256.Slices ![128, 0] S32x256
  slices_S224x256_S64x256_160_0 : S224x256.Slices ![160, 0] S64x256
  inb_S512x64_S512x64_0_0 : ∀ a, (![0, 0] : Fin 2 → Nat) a + S512x64.size a ≤ S512x64.size a
  h_S512x64 : 0 < S512x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  gather_S100000_S1600000x1_S1600000_n_0_n_n_0_1_1_wf : GatherDims.WF S100000 S1600000x1 S1600000 [] [0] [] [0] [] 1 ![1]
  dot_S512x4096_S4096x128_S512x128_1_0_0_1_n_n_wf : DotDims.WF S512x4096 S4096x128 S512x128 [1] [0] [0] [1] [] []
  dot_S512x4096_S4096x32_S512x32_1_0_0_1_n_n_wf : DotDims.WF S512x4096 S4096x32 S512x32 [1] [0] [0] [1] [] []
  dot_S512x128_S128x256_S512x256_1_0_0_1_n_n_wf : DotDims.WF S512x128 S128x256 S512x256 [1] [0] [0] [1] [] []
  dot_S512x32_S32x256_S512x256_1_0_0_1_n_n_wf : DotDims.WF S512x32 S32x256 S512x256 [1] [0] [0] [1] [] []
  dot_S512x64_S64x256_S512x256_1_0_0_1_n_n_wf : DotDims.WF S512x64 S64x256 S512x256 [1] [0] [0] [1] [] []
  dot_S512x256_S256x256_S512x256_1_0_0_1_n_n_wf : DotDims.WF S512x256 S256x256 S512x256 [1] [0] [0] [1] [] []
  dot_S512x256_S256x64_S512x64_1_0_0_1_n_n_wf : DotDims.WF S512x256 S256x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .f32 = 32 ∨ (Rect.block (s := S102400x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S102400.size a
  hwx0_1 : ∀ i : grid0.Coords, EltTy.bits .i32 = 32 ∨ (Rect.block (s := S102400) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S1601536x32.size a
  hwx1_0 : ∀ i : grid1.Coords, EltTy.bits .f32 = 32 ∨ (Rect.block (s := S1601536x32) S4096x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1601536.size a
  hwx1_1 : ∀ i : grid1.Coords, EltTy.bits .i32 = 32 ∨ (Rect.block (s := S1601536) S4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x32.size a ≤ S512x32.size a
  hwx1_2 : ∀ i : grid1.Coords, EltTy.bits .f32 = 32 ∨ (Rect.block (s := S512x32) S512x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x32.size a ≤ S512x32.size a
  hwx2_1 : ∀ i : grid2.Coords, EltTy.bits .f32 = 32 ∨ (Rect.block (s := S512x32) S512x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S512x64.size a
  hwx2_2 : ∀ i : grid2.Coords, EltTy.bits .f32 = 32 ∨ (Rect.block (s := S512x64) S512x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x256.size a ≤ S32x256.size a
  hwx2_4 : ∀ i : grid2.Coords, EltTy.bits .f32 = 32 ∨ (Rect.block (s := S32x256) S32x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x256.size a ≤ S64x256.size a
  hwx2_5 : ∀ i : grid2.Coords, EltTy.bits .f32 = 32 ∨ (Rect.block (s := S64x256) S64x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256.size a ≤ S256.size a
  hwx2_6 : ∀ i : grid2.Coords, EltTy.bits .f32 = 32 ∨ (Rect.block (s := S256) S256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x256.size a ≤ S256x256.size a
  hwx2_7 : ∀ i : grid2.Coords, EltTy.bits .f32 = 32 ∨ (Rect.block (s := S256x256) S256x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256.size a ≤ S256.size a
  hwx2_8 : ∀ i : grid2.Coords, EltTy.bits .f32 = 32 ∨ (Rect.block (s := S256) S256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x64.size a ≤ S256x64.size a
  hwx2_9 : ∀ i : grid2.Coords, EltTy.bits .f32 = 32 ∨ (Rect.block (s := S256x64) S256x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S512x64.size a ≤ S512x64.size a
  hwx2_11 : ∀ i : grid2.Coords, EltTy.bits .f32 = 32 ∨ (Rect.block (s := S512x64) S512x64.size (cc2_transform_11 i) (hinb2_11 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x4096_S4096x32_S512x32_1_0_0_1_n_n : DotDims S512x4096 S4096x32 S512x32 where
  lhsContracting := [1]
  rhsContracting := [0]
  lhsNonContracting := [0]
  rhsNonContracting := [1]
  lhsBatch := []
  rhsBatch := []
  wf := dot_S512x4096_S4096x32_S512x32_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x32_S32x256_S512x256_1_0_0_1_n_n : DotDims S512x32 S32x256 S512x256 where
  lhsContracting := [1]
  rhsContracting := [0]
  lhsNonContracting := [0]
  rhsNonContracting := [1]
  lhsBatch := []
  rhsBatch := []
  wf := dot_S512x32_S32x256_S512x256_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf

abbrev win0_0 : Pipeline.Window sig grid0 :=
  Pipeline.Window.ofSpec (Memref.whole main_v3) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5_0) S512x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_1) S512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S512x32.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_1) S512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v10) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v18) S512x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S512x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S32x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S64x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg7) S256x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg8) S256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg9) S256x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v22) S512x64.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S512x64 : Shape := ⟨2, ![512, 64]⟩
abbrev S100000 : Shape := ⟨1, ![100000]⟩
abbrev S224x256 : Shape := ⟨2, ![224, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x1600000 : Shape := ⟨2, ![1, 1600000]⟩
abbrev S1600000 : Shape := ⟨1, ![1600000]⟩
abbrev S1600000x1 : Shape := ⟨2, ![1600000, 1]⟩
abbrev S512x32 : Shape := ⟨2, ![512, 32]⟩
abbrev S512x224 : Shape := ⟨2, ![512, 224]⟩
abbrev S512x256 : Shape := ⟨2, ![512, 256]⟩
abbrev S1x256 : Shape := ⟨2, ![1, 256]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S512x64, .f32⟩
  | .hbm, ⟨4, _⟩ => ⟨S100000, .i32⟩
  | .hbm, ⟨5, _⟩ => ⟨S224x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S64, .f32⟩
  | .hbm, ⟨11, _⟩ => ⟨S_, .f32⟩
  | .hbm, ⟨12, _⟩ => ⟨S512x128, .f32⟩
  | .hbm, ⟨13, _⟩ => ⟨S100000x1, .i32⟩
  | .hbm, ⟨14, _⟩ => ⟨S512x128, .f32⟩
  | .hbm, ⟨15, _⟩ => ⟨S_, .f32⟩
  | .hbm, ⟨16, _⟩ => ⟨S100000, .f32⟩
  | .hbm, ⟨17, _⟩ => ⟨S_, .f32⟩
  | .hbm, ⟨18, _⟩ => ⟨S512, .f32⟩
  | .hbm, ⟨19, _⟩ => ⟨S100000x1, .i32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512x1, .f32⟩
  | .hbm, ⟨25, _⟩ => ⟨S512x128, .f32⟩
  | .hbm, ⟨26, _⟩ => ⟨S512x128, .f32⟩
  | .hbm, ⟨27, _⟩ => ⟨S1x1600000, .i32⟩
  | .hbm, ⟨28, _⟩ => ⟨S1600000, .i32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .i32⟩
  | .hbm, ⟨38, _⟩ => ⟨S_, .f32⟩
  | .hbm, ⟨39, _⟩ => ⟨S512x32, .f32⟩
  | .hbm, ⟨40, _⟩ => ⟨S1600000x1, .i32⟩
  | .hbm, ⟨41, _⟩ => ⟨S512x32, .f32⟩
  | .hbm, ⟨42, _⟩ => ⟨S_, .f32⟩
  | .hbm, ⟨43, _⟩ => ⟨S1600000, .f32⟩
  | .hbm, ⟨44, _⟩ => ⟨S_, .f32⟩
  | .hbm, ⟨45, _⟩ => ⟨S512, .f32⟩
  | .hbm, ⟨46, _⟩ => ⟨S1600000x1, .i32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S512x1, .f32⟩
  | .hbm, ⟨52, _⟩ => ⟨S512x32, .f32⟩
  | .hbm, ⟨53, _⟩ => ⟨S512x32, .f32⟩
  | .hbm, ⟨54, _⟩ => ⟨S512x224, .f32⟩
  | .hbm, ⟨55, _⟩ => ⟨S512x256, .f32⟩
  | .hbm, ⟨56, _⟩ => ⟨S1x256, .f32⟩
  | .hbm, ⟨57, _⟩ => ⟨S512x256, .f32⟩
  | .hbm, ⟨58, _⟩ => ⟨S512x256, .f32⟩
  | .hbm, ⟨59, _⟩ => ⟨S_, .f32⟩
  | .hbm, ⟨60, _⟩ => ⟨S512x256, .f32⟩
  | .hbm, ⟨61, _⟩ => ⟨S512x256, .f32⟩
  | .hbm, ⟨62, _⟩ => ⟨S512x256, .f32⟩
  | .hbm, ⟨63, _⟩ => ⟨S1x256, .f32⟩
  | .hbm, ⟨64, _⟩ => ⟨S512x256, .f32⟩
  | .hbm, ⟨65, _⟩ => ⟨S512x256, .f32⟩
  | .hbm, ⟨66, _⟩ => ⟨S_, .f32⟩
  | .hbm, ⟨67, _⟩ => ⟨S512x256, .f32⟩
  | .hbm, ⟨68, _⟩ => ⟨S512x256, .f32⟩
  | .hbm, ⟨69, _⟩ => ⟨S512x64, .f32⟩
  | .hbm, ⟨70, _⟩ => ⟨S1x64, .f32⟩
  | .hbm, ⟨71, _⟩ => ⟨S512x64, .f32⟩
  | .hbm, ⟨72, _⟩ => ⟨S512x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call0_cst : Ref sig .tc := ⟨.hbm, 59, rfl⟩
abbrev main_call0_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call1_cst : Ref sig .tc := ⟨.hbm, 66, rfl⟩
abbrev main_call1_v0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  bcast_S_S512x128 : S_.BroadcastsInDim S512x128 (![] : Fin 0 → Fin S512x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S512x32 : S_.BroadcastsInDim S512x32 (![] : Fin 0 → Fin S512x32.rank)
  bcast_S512x1_S512x32_0_1 : S512x1.BroadcastsInDim S512x32 (![0, 1] : Fin 2 → Fin S512x32.rank)
  concatenates_S512x128_S512x32_S512x64_S512x224_d1 : Shape.Concatenates [S512x128, S512x32, S512x64] S512x224 1
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  gather_S100000_S1600000x1_S1600000_n_0_n_n_0_1_1_wf : GatherDims.WF S100000 S1600000x1 S1600000 [] [0] [] [0] [] 1 ![1]
  scatter_S512x32_S1600000x1_S1600000x32_1_0_0_1_wf : ScatterDims.WF S512x32 S1600000x1 S1600000x32 [1] [0] [0] 1
  scatter_S512_S1600000x1_S1600000_n_0_0_1_wf : ScatterDims.WF S512 S1600000x1 S1600000 [] [0] [0] 1
  dot_S512x224_S224x256_S512x256_1_0_0_1_n_n_wf : DotDims.WF S512x224 S224x256 S512x256 [1] [0] [0] [1] [] []
  dot_S512x256_S256x256_S512x256_1_0_0_1_n_n_wf : DotDims.WF S512x256 S256x256 S512x256 [1] [0] [0] [1] [] []
  dot_S512x256_S256x64_S512x64_1_0_0_1_n_n_wf : DotDims.WF S512x256 S256x64 S512x64 [1] [0] [0] [1] [] []

variable [Facts₀]

def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S512x32_S1600000x1_S1600000x32_1_0_0_1 : ScatterDims S512x32 S1600000x1 S1600000x32 where
  updateWindowDims := [1]
  insertedWindowDims := [0]
  scatterDimsToOperandDims := [0]
  indexVectorDim := 1
  wf := scatter_S512x32_S1600000x1_S1600000x32_1_0_0_1_wf
def scatter_S512_S1600000x1_S1600000_n_0_0_1 : ScatterDims S512 S1600000x1 S1600000 where
  updateWindowDims := []
  insertedWindowDims := [0]
  scatterDimsToOperandDims := [0]
  indexVectorDim := 1
  wf := scatter_S512_S1600000x1_S1600000_n_0_0_1_wf
def dot_S512x224_S224x256_S512x256_1_0_0_1_n_n : DotDims S512x224 S224x256 S512x256 where
  lhsContracting := [1]
  rhsContracting := [0]
  lhsNonContracting := [0]
  rhsNonContracting := [1]
  lhsBatch := []
  rhsBatch := []
  wf := dot_S512x224_S224x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf

class Facts : Prop extends Facts₀ where

variable [Facts]
-- ==== Proof.LibPlainDot.lean ====
/-
  A plain matrix product read at one entry, at the ideal instance (floats are extended reals).

  For dimension numbers that contract the left operand's columns against the right operand's rows, with no batch
  axes, the contraction index is its one coordinate, the left operand is read at (row, k) and the right at (k, column).
  Stated over ANY dimension-number record of the right type whose fields are given by hypotheses, so that one
  statement serves every size at which a program multiplies.

  * `contr_sum`           : the sum over the contraction index is the sum over k of left (i, k) times right (k, j).
  * `matmul_zero_apply`   : a matrix unit's product into a zero accumulator, at (i, j).
  * `dotGeneral_apply`    : the host's product, at (i, j).
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The sum over the contraction index of a plain product is the sum over `k` of left (i, k) times right (k, j). -/
theorem contr_sum (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (i : Fin M) (j : Fin N) :
    ∑ q : d.contr.Idx, l (d.lhsIdx (ix2 i j) q) * r (d.rhsIdx (ix2 i j) q) = ∑ k : Fin K, l (ix2 i k) * r (ix2 k j) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have l0 : ∀ q : D.contr.Idx, (D.lhsIdx (ix2 i j) q 0).val = i.val := fun q => by
    subst hD
    unfold DotDims.lhsIdx
    rw [dif_neg (show (0 : Fin 2) ∉ ([] : List (Fin 2)) from List.not_mem_nil), dif_pos (show (0 : Fin 2) ∈ [(0 : Fin 2)] from List.mem_singleton.mpr rfl)]
    rfl
  have l1 : ∀ q : D.contr.Idx, (D.lhsIdx (ix2 i j) q 1).val = (q ⟨0, by omega⟩).val := fun q => by
    subst hD
    exact DotDims.lhsIdx_val_of_single _ rfl (ix2 i j) q
  have r0 : ∀ q : D.contr.Idx, (D.rhsIdx (ix2 i j) q 0).val = (q ⟨0, by omega⟩).val := fun q => by
    subst hD
    exact DotDims.rhsIdx_val_of_single _ rfl (ix2 i j) q
  have r1 : ∀ q : D.contr.Idx, (D.rhsIdx (ix2 i j) q 1).val = j.val := fun q => by
    subst hD
    unfold DotDims.rhsIdx
    rw [dif_neg (show (1 : Fin 2) ∉ ([] : List (Fin 2)) from List.not_mem_nil), dif_pos (show (1 : Fin 2) ∈ [(1 : Fin 2)] from List.mem_singleton.mpr rfl)]
    rfl
  have el : D.lhsIdx (ix2 i j) ((contrEquiv1 D K hr hs).symm k) = ix2 i k := funext fun a => Fin.ext (by
    match a with
    | ⟨0, _⟩ => exact l0 _
    | ⟨1, _⟩ => exact (l1 _).trans hk)
  have er : D.rhsIdx (ix2 i j) ((contrEquiv1 D K hr hs).symm k) = ix2 k j := funext fun a => Fin.ext (by
    match a with
    | ⟨0, _⟩ => exact (r0 _).trans hk
    | ⟨1, _⟩ => exact r1 _)
  rw [el, er]

/-- A matrix unit's plain product into a zero accumulator, read at (i, j). -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ k : Fin K, l (ix2 i k) * r (ix2 k j) := by
  show FloatOps.matmul d prec l r (constant ⟨2, ![M, N]⟩ .f32 0x00000000#32) (ix2 i j) = _
  rw [Ideal.matmul_constant_zero_apply]
  exact contr_sum d hlc hrc hln hrn hlb hrb l r i j

/-- The host's plain product, read at (i, j). -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    Host.dotGeneral d prec l r (ix2 i j) = ∑ k : Fin K, l (ix2 i k) * r (ix2 k j) := by
  simp only [Host.dotGeneral]
  rw [Ideal.dotGeneral_apply]
  exact contr_sum d hlc hrc hln hrn hlb hrb l r i j

end Cert.LibPlainDot

end
-- ==== Proof.SegmentFold.lean ====
/-
  Sums of rows weighted by a one-hot mask, as plain algebra on the extended reals.

  An accumulator that adds, block after block of B consecutive rows, each row weighted by "its id word is segment b",
  ends at the sum of the rows whose id is b. Rows past the real ones carry the id -1, which is no segment, so they add
  nothing whatever they hold.
-/
import Mathlib.Data.EReal.Basic
import Mathlib.Algebra.BigOperators.Fin
import Mathlib.Algebra.BigOperators.Intervals

noncomputable section

open scoped BigOperators

namespace Cert.SegmentFold

/-- The one-hot weight of an id word at segment `b`: one when the word is `b`'s number, else zero. -/
def hot (b : Fin 512) (w : BitVec 32) : EReal := if w = BitVec.ofNat 32 b.val then 1 else 0

/-- A 32-bit word is segment `b`'s number exactly when, read signed, it is `b`. -/
theorem eq_ofNat_iff_toInt (b : Fin 512) (w : BitVec 32) : w = BitVec.ofNat 32 b.val ↔ w.toInt = (b.val : ℤ) := by
  have hb : b.val < 512 := b.isLt
  have hmod : b.val % 2 ^ 32 = b.val := Nat.mod_eq_of_lt (by omega)
  have h : (BitVec.ofNat 32 b.val).toInt = (b.val : ℤ) := by
    rw [BitVec.toInt_eq_toNat_cond, BitVec.toNat_ofNat, hmod]
    split <;> omega
  constructor
  · rintro rfl
    exact h
  · intro hw
    exact BitVec.toInt_inj.mp (hw.trans h.symm)

/-- The id -1 is no segment. -/
theorem hot_neg_one (b : Fin 512) : hot b 4294967295#32 = 0 := by
  have hb : b.val < 512 := b.isLt
  have hne : ¬ (4294967295#32 = BitVec.ofNat 32 b.val) := by
    intro h
    have h' := congrArg BitVec.toNat h
    rw [BitVec.toNat_ofNat, BitVec.toNat_ofNat, Nat.mod_eq_of_lt (a := b.val) (by omega)] at h'
    omega
  unfold hot
  rw [if_neg hne]

/-- Summing block after block of `B` consecutive terms is summing the terms. -/
theorem sum_blocks (B : ℕ) (g : ℕ → EReal) (n : ℕ) :
    (∑ t ∈ Finset.range n, ∑ k : Fin B, g (t * B + k.val)) = ∑ e ∈ Finset.range (n * B), g e := by
  induction n with
  | zero => simp
  | succ n ih =>
    rw [Finset.sum_range_succ, ih, Nat.succ_mul, Finset.sum_range_add,
      Fin.sum_univ_eq_sum_range (fun k => g (n * B + k)) B]

/-- The weighted sum over the padded range is the sum of the rows whose id, read signed, is `b`:
    rows past `N` carry the id -1 and add nothing. -/
theorem sum_hot_eq_filter {N Np : ℕ} (hN : N ≤ Np) (b : Fin 512) (seg : ℕ → BitVec 32) (feat : ℕ → EReal)
    (hpad : ∀ e, N ≤ e → seg e = 4294967295#32) :
    (∑ e ∈ Finset.range Np, hot b (seg e) * feat e)
      = ∑ e ∈ Finset.univ.filter (fun e : Fin N => (seg e.val).toInt = (b.val : ℤ)), feat e.val := by
  have hsub : Finset.range N ⊆ Finset.range Np := Finset.range_subset_range.mpr hN
  rw [← Finset.sum_subset hsub (f := fun e => hot b (seg e) * feat e)]
  · rw [Finset.sum_range (fun e => hot b (seg e) * feat e), Finset.sum_filter]
    refine Finset.sum_congr rfl ?_
    intro e _
    unfold hot
    by_cases h : (seg e.val).toInt = (b.val : ℤ)
    · rw [if_pos h, if_pos ((eq_ofNat_iff_toInt b _).mpr h), one_mul]
    · rw [if_neg h, if_neg (fun h' => h ((eq_ofNat_iff_toInt b _).mp h')), zero_mul]
  · intro e _ he
    have hNe : N ≤ e := by
      rw [Finset.mem_range] at he
      omega
    show hot b (seg e) * feat e = 0
    rw [hpad e hNe, hot_neg_one, zero_mul]

/-- The same for the counts: the mask's total is the number of rows whose id is `b`, as a sum of ones. -/
theorem sum_hot_eq_count {N Np : ℕ} (hN : N ≤ Np) (b : Fin 512) (seg : ℕ → BitVec 32)
    (hpad : ∀ e, N ≤ e → seg e = 4294967295#32) :
    (∑ e ∈ Finset.range Np, hot b (seg e))
      = ∑ e ∈ Finset.univ.filter (fun e : Fin N => (seg e.val).toInt = (b.val : ℤ)), (1 : EReal) := by
  have h := sum_hot_eq_filter hN b seg (fun _ => (1 : EReal)) hpad
  simpa only [mul_one] using h

end Cert.SegmentFold

end
-- ==== Proof.NodeReduce.lean ====
/-
  One segment-sum region of the kernel, read as values: a grid of row blocks, each point adding to two resident
  accumulators the block's rows weighted by a one-hot mask (row b of the mask marks the lanes whose id word is
  segment b) and the mask's row sums. Read over the extended reals, after the last point the accumulators hold, per
  segment, the sum over ALL padded rows of weight times row, and the sum of the weights.
-/
import proofs.«426386_j69337952026908_1_alg».proof.Proof.Gen.KernelIdeal.Frame
import Idealize.ShloMosaic.Lib.Pipeline.Value
import Idealize.ShloMosaic.Lib.ValueIdx
import Idealize.ShloMosaic.Lib.Tactic
import Idealize.ShloMosaic.Lib.KernelVsHost
import Idealize.ShloMosaic.PureOps.Ideal.Laws
import proofs.«426386_j69337952026908_1_alg».proof.Proof.LibPlainDot
import proofs.«426386_j69337952026908_1_alg».proof.Proof.SegmentFold

set_option maxRecDepth 16384

noncomputable section

namespace Cert.KernelIdeal.NodeReduce

open Idealize.ShloMosaic Idealize.ShloMosaic.TcCoe Idealize.SL.Sem Idealize.ShloMosaic.Tactic
open Idealize.ShloMosaic.Pipeline (Dat)
open Cert.KernelIdeal Cert.KernelIdeal.Gen
open Idealize.ShloMosaic.ValueIdx
open Cert.SegmentFold (hot)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-- Away from the first point the body leaves the running sums plus this block's one-hot product. -/
theorem sum_B (c : Dev nD) (i : grid0.Coords) (a1 : Memref sig .tc .vmem S4096x128 .f32) (h1 : a1.IsWhole)
    (a2 : Memref sig .tc .vmem S4096 .i32) (h2 : a2.IsWhole) (a3 : Memref sig .tc .vmem S512x128 .f32) (h3 : a3.IsWhole)
    (a4 : Memref sig .tc .vmem S512 .f32) (h4 : a4.IsWhole) (hc : ¬cond0_0 i)
    (x0 : Vec F S4096x128 .f32) (x1 : Vec F S4096 .i32) (xo2 : Vec F S512x128 .f32) (xo3 : Vec F S512 .f32) :
    out0_B_2 c i a1 h1 a2 h2 a3 h3 a4 h4 hc x0 x1 xo2 xo3 = k0_pay4 x1 x0 xo2 := by
  unfold out0_B_2
  rw [View.read_writes_eq_canon _ _ _ (cover0_B_2 c i a1 h1 a2 h2 a3 h3 a4 h4 hc x0 x1 xo2 xo3)]
  unfold kernelRun0_B
  dsimp only
  sl_unfold_words
  rw [View.canon_unit_zero hz2]
  simp only [View.readAt_eq_ld, h1.read_unread, h2.read_unread, h3.read_unread, View.ld_unit_zero (S := S4096x128) hz2,
    View.ld_unit_zero (S := S4096) hz1, View.ld_unit_zero (S := S512x128) hz2]

/-- Away from the first point the body leaves the running counts plus this block's one-hot row sums. -/
theorem cnt_B (c : Dev nD) (i : grid0.Coords) (a1 : Memref sig .tc .vmem S4096x128 .f32) (h1 : a1.IsWhole)
    (a2 : Memref sig .tc .vmem S4096 .i32) (h2 : a2.IsWhole) (a3 : Memref sig .tc .vmem S512x128 .f32) (h3 : a3.IsWhole)
    (a4 : Memref sig .tc .vmem S512 .f32) (h4 : a4.IsWhole) (hc : ¬cond0_0 i)
    (x0 : Vec F S4096x128 .f32) (x1 : Vec F S4096 .i32) (xo2 : Vec F S512x128 .f32) (xo3 : Vec F S512 .f32) :
    out0_B_3 c i a1 h1 a2 h2 a3 h3 a4 h4 hc x0 x1 xo2 xo3 = k0_pay5 x1 xo3 := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero hz1]
  simp only [View.readAt_eq_ld, h2.read_unread, h4.read_unread, View.ld_unit_zero (S := S4096) hz1,
    View.ld_unit_zero (S := S512) hz1]

/-- At the first point the body stores zeros, reads them back and leaves zero plus this block's one-hot product. -/
theorem sum_A (c : Dev nD) (i : grid0.Coords) (a1 : Memref sig .tc .vmem S4096x128 .f32) (h1 : a1.IsWhole)
    (a2 : Memref sig .tc .vmem S4096 .i32) (h2 : a2.IsWhole) (a3 : Memref sig .tc .vmem S512x128 .f32) (h3 : a3.IsWhole)
    (a4 : Memref sig .tc .vmem S512 .f32) (h4 : a4.IsWhole) (hc : cond0_0 i)
    (x0 : Vec F S4096x128 .f32) (x1 : Vec F S4096 .i32) :
    out0_A_2 c i a1 h1 a2 h2 a3 h3 a4 h4 hc x0 x1 = k0_pay4 x1 x0 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S512x128) hz2, View.readCov_unit_zero (S := S512x128) _ hz2]
  simp only [View.readAt_eq_ld, h1.read_unread, h2.read_unread, View.ld_unit_zero (S := S4096x128) hz2,
    View.ld_unit_zero (S := S4096) hz1, View.ld_unit_zero (S := S512x128) hz2]

/-- At the first point the counts are zero plus this block's one-hot row sums. -/
theorem cnt_A (c : Dev nD) (i : grid0.Coords) (a1 : Memref sig .tc .vmem S4096x128 .f32) (h1 : a1.IsWhole)
    (a2 : Memref sig .tc .vmem S4096 .i32) (h2 : a2.IsWhole) (a3 : Memref sig .tc .vmem S512x128 .f32) (h3 : a3.IsWhole)
    (a4 : Memref sig .tc .vmem S512 .f32) (h4 : a4.IsWhole) (hc : cond0_0 i)
    (x0 : Vec F S4096x128 .f32) (x1 : Vec F S4096 .i32) :
    out0_A_3 c i a1 h1 a2 h2 a3 h3 a4 h4 hc x0 x1 = k0_pay5 x1 k0_pay2 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S512) hz1, View.readCov_unit_zero (S := S512) _ hz1]
  simp only [View.readAt_eq_ld, h2.read_unread, View.ld_unit_zero (S := S4096) hz1, View.ld_unit_zero (S := S512) hz1]

/-! ## One point's arithmetic at an index, over the extended reals -/

theorem bit_weight (x y : BitVec 32) :
    ((((IntOp.cmpi .eq x y).setWidth 32).toInt : ℝ) : EReal) = if y = x then 1 else 0 := by
  rw [toInt_setWidth_bit]
  by_cases h : y = x
  · subst h; simp [IntOp.cmpi]
  · have h' : ¬ x = y := fun e => h e.symm
    simp [IntOp.cmpi, h, h']

/-- The mask: row `b`, lane `k` holds the one-hot weight of lane `k`'s id word at segment `b`. -/
theorem mask_apply (v4 : Vec Ideal S4096 .i32) (b : Fin 512) (k : Fin 4096) :
    k0_pay3 (F := Ideal) v4 (ix2 b k) = hot b (v4 (ix1 k)) := by
  unfold k0_pay3
  dsimp only
  rw [sitofp_apply, extui_apply]
  show ((((IntOp.cmpi .eq _ _).setWidth 32).toInt : ℝ) : EReal) = _
  rw [bit_weight]
  rw [broadcastTo_apply _ broadcasts_S512x1_S512x4096 (ix2 b k) (ix2 b (0 : Fin 1)) (by
    intro a; match a with | ⟨0, _⟩ => rfl | ⟨1, _⟩ => rfl)]
  rw [broadcastTo_apply _ broadcasts_S1x4096_S512x4096 (ix2 b k) (ix2 (0 : Fin 1) k) (by
    intro a; match a with | ⟨0, _⟩ => rfl | ⟨1, _⟩ => rfl)]
  rw [shapeCast_apply _ shapeCasts_S4096_S1x4096 (ix2 (0 : Fin 1) k) (ix1 k) (by
    rw [Shape.rowMajor_val_one, Shape.rowMajor_val_two]; simp [ix1, ix2]), shapeCast_self]
  have hi : iota .tc S512x1 32 [0] iota_S512x1_d0_w32 (ix2 b (0 : Fin 1)) = BitVec.ofNat 32 b.val := by
    show BitVec.ofNat 32 (0 * 512 + b.val) = _
    simp
  rw [hi]
  rfl

/-- The sums' update at (segment, column): what was there plus the block's rows weighted by the mask. -/
theorem sums_apply (v4 : Vec Ideal S4096 .i32) (v12 : Vec Ideal S4096x128 .f32) (v15 : Vec Ideal S512x128 .f32)
    (b : Fin 512) (d : Fin 128) :
    k0_pay4 (F := Ideal) v4 v12 v15 (ix2 b d) = v15 (ix2 b d) + ∑ k : Fin 4096, hot b (v4 (ix1 k)) * v12 (ix2 k d) := by
  unfold k0_pay4
  rw [addf_apply, shapeCast_self]
  congr 1
  refine (Cert.LibPlainDot.matmul_zero_apply dot_S512x4096_S4096x128_S512x128_1_0_0_1_n_n rfl rfl rfl rfl rfl rfl none _ _ b d).trans ?_
  refine Finset.sum_congr rfl fun k _ => ?_
  rw [truncf_apply, truncf_apply, shapeCast_self, mask_apply]

/-- The counts' update at a segment: what was there plus the mask's row sum. -/
theorem counts_apply (v4 : Vec Ideal S4096 .i32) (v21 : Vec Ideal S512 .f32) (b : Fin 512) :
    k0_pay5 (F := Ideal) v4 v21 (ix1 b) = v21 (ix1 b) + ∑ k : Fin 4096, hot b (v4 (ix1 k)) := by
  unfold k0_pay5
  rw [addf_apply, shapeCast_self]
  congr 1
  refine (Ideal.multiReduction_add_single (k0_pay3 (F := Ideal) v4) 0x00000000#32 reduces_S512x4096_S512 (.inl rfl) rfl (ix1 b)).trans ?_
  show (∑ k : Fin 4096, k0_pay3 (F := Ideal) v4 (reduces_S512x4096_S512.lift (ix1 b) k)) = _
  refine Finset.sum_congr rfl fun k _ => ?_
  have e : reduces_S512x4096_S512.lift (ix1 b) k = ix2 b k := funext fun a => Fin.ext (by
    match a with
    | ⟨0, _⟩ => rfl
    | ⟨1, _⟩ => rfl)
  rw [e, mask_apply]

/-! ## The accumulation over the grid -/

section Region

variable (V : (c : Dev nD) → (b : Ref sig .tc) → Buf (Elt Ideal) ((c : Thread nD τ).loc b))

/-- The feature rows as the region finds them, padded to whole blocks. -/
abbrev farr (c : Dev nD) : Vec Ideal S102400x128 .f32 := V c (Pipeline.arrRef spec0 0)
/-- The id words as the region finds them, padded to whole blocks. -/
abbrev sarr (c : Dev nD) : Vec Ideal S102400 .i32 := V c (Pipeline.arrRef spec0 1)
/-- Point `t`'s block of feature rows. -/
abbrev fblk (c : Dev nD) (t : Fin cfg0.N) : Vec Ideal S4096x128 .f32 := iblk0 V c 0 t
/-- Point `t`'s block of id words. -/
abbrev sblk (c : Dev nD) (t : Fin cfg0.N) : Vec Ideal S4096 .i32 := iblk0 V c 1 t

theorem idx_facts : ∀ t : Fin cfg0.N, win0_0.index t 0 = t.val ∧ win0_0.index t 1 = 0 ∧ win0_1.index t 0 = t.val :=
  (by decide +kernel : ∀ t : Fin grid0.N, win0_0.index t 0 = t.val ∧ win0_0.index t 1 = 0 ∧ win0_1.index t 0 = t.val)

/-- Block `t` of the feature rows holds rows 4096 t … 4096 t + 4095. -/
theorem fblk_apply (c : Dev nD) (t : Fin cfg0.N) (k : Fin 4096) (d : Fin 128) (h : t.val * 4096 + k.val < 102400) :
    fblk V c t (ix2 k d) = farr V c (ix2 ⟨t.val * 4096 + k.val, h⟩ d) := by
  have hi := idx_facts t
  show iblk0 V c 0 t (ix2 k d) = V c (Pipeline.arrRef spec0 0) _
  unfold iblk0
  rw [View.read_apply]
  refine congrArg (V c (Pipeline.arrRef spec0 0)) (funext fun a => Fin.ext ?_)
  match a with
  | ⟨0, _⟩ => show win0_0.index t 0 * 4096 + 1 * k.val = t.val * 4096 + k.val; rw [hi.1]; omega
  | ⟨1, _⟩ => show win0_0.index t 1 * 128 + 1 * d.val = d.val; rw [hi.2.1]; omega

/-- Block `t` of the id words holds words 4096 t … 4096 t + 4095. -/
theorem sblk_apply (c : Dev nD) (t : Fin cfg0.N) (k : Fin 4096) (h : t.val * 4096 + k.val < 102400) :
    sblk V c t (ix1 k) = sarr V c (ix1 ⟨t.val * 4096 + k.val, h⟩) := by
  have hi := idx_facts t
  show iblk0 V c 1 t (ix1 k) = V c (Pipeline.arrRef spec0 1) _
  unfold iblk0
  rw [View.read_apply]
  refine congrArg (V c (Pipeline.arrRef spec0 1)) (funext fun a => Fin.ext ?_)
  match a with
  | ⟨0, _⟩ => show win0_1.index t 0 * 4096 + 1 * k.val = t.val * 4096 + k.val; rw [hi.2.2]; omega

/-- The id word of (padded) row `e`. -/
def segp (c : Dev nD) (e : ℕ) : BitVec 32 := if h : e < 102400 then sarr V c (ix1 ⟨e, h⟩) else 4294967295#32
/-- Column `d` of (padded) row `e`. -/
def featp (c : Dev nD) (d : Fin 128) (e : ℕ) : EReal := if h : e < 102400 then farr V c (ix2 ⟨e, h⟩ d) else 0

/-- Block `t`'s contribution to the sums at (segment, column). -/
def blockSum (c : Dev nD) (b : Fin 512) (d : Fin 128) (t : ℕ) : EReal :=
  ∑ k : Fin 4096, hot b (segp V c (t * 4096 + k.val)) * featp V c d (t * 4096 + k.val)
/-- Block `t`'s contribution to the counts at a segment. -/
def blockCnt (c : Dev nD) (b : Fin 512) (t : ℕ) : EReal :=
  ∑ k : Fin 4096, hot b (segp V c (t * 4096 + k.val))

theorem blockSum_eq (c : Dev nD) (b : Fin 512) (d : Fin 128) (t : Fin cfg0.N) :
    (∑ k : Fin 4096, hot b (sblk V c t (ix1 k)) * fblk V c t (ix2 k d)) = blockSum V c b d t.val := by
  have hN : t.val < 25 := lt_of_lt_of_eq t.isLt (show cfg0.N = 25 from N_0)
  refine Finset.sum_congr rfl fun k _ => ?_
  have h : t.val * 4096 + k.val < 102400 := by have := k.isLt; omega
  rw [sblk_apply V c t k h, fblk_apply V c t k d h, segp, featp, dif_pos h, dif_pos h]

theorem blockCnt_eq (c : Dev nD) (b : Fin 512) (t : Fin cfg0.N) :
    (∑ k : Fin 4096, hot b (sblk V c t (ix1 k))) = blockCnt V c b t.val := by
  have hN : t.val < 25 := lt_of_lt_of_eq t.isLt (show cfg0.N = 25 from N_0)
  refine Finset.sum_congr rfl fun k _ => ?_
  have h : t.val * 4096 + k.val < 102400 := by have := k.isLt; omega
  rw [sblk_apply V c t k h, segp, dif_pos h]

/-- After point `n` the two staging buffers hold the blocks' contributions summed so far. -/
theorem acc (c : Dev nD) : ∀ (n : ℕ) (hn : n < cfg0.N),
    (∀ (b : Fin 512) (d : Fin 128), (outsAt0 V c n hn).1 (ix2 b d) = ∑ t ∈ Finset.range (n + 1), blockSum V c b d t)
    ∧ (∀ b : Fin 512, (outsAt0 V c n hn).2 (ix1 b) = ∑ t ∈ Finset.range (n + 1), blockCnt V c b t)
  | 0, hn => by
    constructor
    · intro b d
      rw [outsAt0_A V c ⟨0, hn⟩ rfl]
      dsimp only
      rw [sum_A]
      refine (sums_apply (sblk V c ⟨0, hn⟩) (fblk V c ⟨0, hn⟩) (k0_pay1 (F := Ideal)) b d).trans ?_
      rw [blockSum_eq V c b d ⟨0, hn⟩, Finset.sum_range_one]
      show Ideal.ofBits .f32 0x00000000#32 + _ = _
      rw [Ideal.ofBits_zero_f32, zero_add]
    · intro b
      rw [outsAt0_A V c ⟨0, hn⟩ rfl]
      dsimp only
      rw [cnt_A]
      refine (counts_apply (sblk V c ⟨0, hn⟩) (k0_pay2 (F := Ideal)) b).trans ?_
      rw [blockCnt_eq V c b ⟨0, hn⟩, Finset.sum_range_one]
      show Ideal.ofBits .f32 0x00000000#32 + _ = _
      rw [Ideal.ofBits_zero_f32, zero_add]
  | n + 1, hn => by
    have hN : cfg0.N = 25 := N_0
    have hB : ¬(⟨n + 1, hn⟩ : Fin cfg0.N).val % 25 = 0 := by dsimp only; omega
    have ih := acc c n (Nat.lt_of_succ_lt hn)
    constructor
    · intro b d
      rw [outsAt0_B V c ⟨n + 1, hn⟩ hB]
      dsimp only
      rw [sum_B]
      refine (sums_apply (sblk V c ⟨n + 1, hn⟩) (fblk V c ⟨n + 1, hn⟩) (outsAt0 V c n (Nat.lt_of_succ_lt hn)).1 b d).trans ?_
      rw [blockSum_eq V c b d ⟨n + 1, hn⟩, ih.1 b d, Finset.sum_range_succ _ (n + 1)]
    · intro b
      rw [outsAt0_B V c ⟨n + 1, hn⟩ hB]
      dsimp only
      rw [cnt_B]
      refine (counts_apply (sblk V c ⟨n + 1, hn⟩) (outsAt0 V c n (Nat.lt_of_succ_lt hn)).2 b).trans ?_
      rw [blockCnt_eq V c b ⟨n + 1, hn⟩, ih.2 b, Finset.sum_range_succ _ (n + 1)]

end Region

/-! ## The arrays after the region -/

section Final

variable (V : (c : Dev nD) → (b : Ref sig .tc) → Buf (Elt Ideal) ((c : Thread nD τ).loc b))

/-- At the last grid point the two outputs' one block sits at the origin and is whole. -/
theorem idx_last : ∀ t : Fin cfg0.N, t.val = 24 →
    (win0_2.index t 0 = 0 ∧ win0_2.index t 1 = 0 ∧ win0_3.index t 0 = 0)
    ∧ (win0_2.xsize (grid0.coords t) 0 = 512 ∧ win0_2.xsize (grid0.coords t) 1 = 128 ∧ win0_3.xsize (grid0.coords t) 0 = 512) :=
  (by decide +kernel : ∀ t : Fin grid0.N, t.val = 24 →
    (win0_2.index t 0 = 0 ∧ win0_2.index t 1 = 0 ∧ win0_3.index t 0 = 0)
    ∧ (win0_2.xsize (grid0.coords t) 0 = 512 ∧ win0_2.xsize (grid0.coords t) 1 = 128 ∧ win0_3.xsize (grid0.coords t) 0 = 512))

-- The last grid point (the only one that writes the outputs back) is kept a variable `t₀`, its number a hypothesis.

theorem flushed2_eq (t₀ : Fin cfg0.N) (h₀ : t₀.val = 24) (c : Dev nD) (t : Fin cfg0.N) (hf : (cfg0.win 2).flush t = true) :
    (dat0 V c).flushed 2 t = ((cfg0.win 2).blk t).view.read (Elt Ideal) (outsAt0 V c t₀.val t₀.isLt).1 := by
  have hN : cfg0.N = 25 := N_0
  have hl : t.val = 24 := by have := (flush0_2 t).mp hf; have := t.isLt; omega
  have e : outsAt0 V c t₀.val t₀.isLt = outsAt0 V c t.val t.isLt := by
    have ht : t₀ = t := Fin.ext (h₀.trans hl.symm)
    subst ht
    rfl
  have hi := (idx_last t hl).1
  show (cfg0.win 2).cut (grid0.coords t) ((dat0 V c).after 2 t)
    = ((cfg0.win 2).blk t).view.read (Elt Ideal) (outsAt0 V c t₀.val t₀.isLt).1
  rw [after0_2, e]
  generalize (outsAt0 V c t.val t.isLt).1 = X
  have hz' : (fun a => win0_2.index t a * main_v5_0.ty.shape.size a) = fun _ => 0 := funext fun a => by
    match a with
    | ⟨0, _⟩ => show win0_2.index t 0 * 512 = 0; rw [hi.1]
    | ⟨1, _⟩ => show win0_2.index t 1 * 128 = 0; rw [hi.2.1]
  exact (Memref.read_access_unit_zero (Elt Ideal) main_v5_0 hz' (fun a => by rw [congrFun hz' a]; simp) X).symm

theorem flushed3_eq (t₀ : Fin cfg0.N) (h₀ : t₀.val = 24) (c : Dev nD) (t : Fin cfg0.N) (hf : (cfg0.win 3).flush t = true) :
    (dat0 V c).flushed 3 t = ((cfg0.win 3).blk t).view.read (Elt Ideal) (outsAt0 V c t₀.val t₀.isLt).2 := by
  have hN : cfg0.N = 25 := N_0
  have hl : t.val = 24 := by have := (flush0_3 t).mp hf; have := t.isLt; omega
  have e : outsAt0 V c t₀.val t₀.isLt = outsAt0 V c t.val t.isLt := by
    have ht : t₀ = t := Fin.ext (h₀.trans hl.symm)
    subst ht
    rfl
  have hi := (idx_last t hl).1
  show (cfg0.win 3).cut (grid0.coords t) ((dat0 V c).after 3 t)
    = ((cfg0.win 3).blk t).view.read (Elt Ideal) (outsAt0 V c t₀.val t₀.isLt).2
  rw [after0_3, e]
  generalize (outsAt0 V c t.val t.isLt).2 = X
  have hz' : (fun a => win0_3.index t a * main_v5_1.ty.shape.size a) = fun _ => 0 := funext fun a => by
    match a with
    | ⟨0, _⟩ => show win0_3.index t 0 * 512 = 0; rw [hi.2.2]
  exact (Memref.read_access_unit_zero (Elt Ideal) main_v5_1 hz' (fun a => by rw [congrFun hz' a]; simp) X).symm

/-- The sums' array ends at what the last point left: its one block is the whole array. -/
theorem sums_final (t₀ : Fin cfg0.N) (h₀ : t₀.val = 24) (c : Dev nD) : (dat0 V c).arrAt 2 cfg0.N = (outsAt0 V c t₀.val t₀.isLt).1 :=
  (dat0 V c).arrAt_eq_of_cover 2 (outsAt0 V c t₀.val t₀.isLt).1 (flushed2_eq V t₀ h₀ c) fun i =>
    ⟨t₀, (flush0_2 t₀).mpr (by rw [h₀]), by
      have hi := idx_last t₀ h₀
      show i ∈ ((View.whole main_v5_0).slice (win0_2.rect t₀)).set
      rw [View.set_slice_whole, Rect.mem_set_unit]
      intro a
      have h0 : (i 0 : Nat) < 512 := (i 0).isLt
      have h1 : (i 1 : Nat) < 128 := (i 1).isLt
      match a with
      | ⟨0, _⟩ =>
        show win0_2.index t₀ 0 * 512 ≤ (i 0 : Nat) ∧ (i 0 : Nat) < win0_2.index t₀ 0 * 512 + win0_2.xsize (grid0.coords t₀) 0
        rw [hi.1.1, hi.2.1]; omega
      | ⟨1, _⟩ =>
        show win0_2.index t₀ 1 * 128 ≤ (i 1 : Nat) ∧ (i 1 : Nat) < win0_2.index t₀ 1 * 128 + win0_2.xsize (grid0.coords t₀) 1
        rw [hi.1.2.1, hi.2.2.1]; omega⟩

/-- The counts' array ends at what the last point left. -/
theorem cnts_final (t₀ : Fin cfg0.N) (h₀ : t₀.val = 24) (c : Dev nD) : (dat0 V c).arrAt 3 cfg0.N = (outsAt0 V c t₀.val t₀.isLt).2 :=
  (dat0 V c).arrAt_eq_of_cover 3 (outsAt0 V c t₀.val t₀.isLt).2 (flushed3_eq V t₀ h₀ c) fun i =>
    ⟨t₀, (flush0_3 t₀).mpr (by rw [h₀]), by
      have hi := idx_last t₀ h₀
      show i ∈ ((View.whole main_v5_1).slice (win0_3.rect t₀)).set
      rw [View.set_slice_whole, Rect.mem_set_unit]
      intro a
      have h0 : (i 0 : Nat) < 512 := (i 0).isLt
      match a with
      | ⟨0, _⟩ =>
        show win0_3.index t₀ 0 * 512 ≤ (i 0 : Nat) ∧ (i 0 : Nat) < win0_3.index t₀ 0 * 512 + win0_3.xsize (grid0.coords t₀) 0
        rw [hi.1.2.2, hi.2.2.2]; omega⟩

end Final

/-- The last grid point, by its number. -/
def tl : Fin cfg0.N := ⟨24, by rw [show cfg0.N = 25 from N_0]; decide⟩

theorem tl_val : (tl : Fin cfg0.N).val = 24 := rfl

end Cert.KernelIdeal.NodeReduce

end
-- ==== Proof.Terms.lean ====
/-
  The reference's value, in named pieces: per graph the sum of its nodes' feature rows and their number, the same for
  the edges (an edge belongs to the graph of its source node), the two means (sums over counts floored at one), and the
  three-layer perceptron over the means laid beside the global features. Each piece is spelt exactly as the reference
  program applies its operations, so that the program's composed result is their composition.
-/
import proofs.«426386_j69337952026908_1_alg».proof.Proof.Gen.ReferenceIdeal

noncomputable section

namespace Cert.Terms

open Idealize.ShloMosaic Cert.ReferenceIdeal Cert.ReferenceIdeal.Gen

variable {F : FTy → Type} [FloatOps F]

/-- Per graph, the sum of the feature rows of its nodes. -/
def nodeSum (x0 : FVec F S100000x128 .f32) (x4 : IVec S100000 32) : FVec F S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 x4) x0

/-- Per graph, the number of its nodes. -/
def nodeCnt (x4 : IVec S100000 32) : FVec F S512 .f32 :=
  Host.scatterAdd scatter_S512_S100000x1_S100000_n_0_0_1
    (broadcastInDim S512 ![] bcast_S_S512 (constant S_ .f32 0x00000000#32))
    (broadcastInDim S100000x1 ![0] bcast_S100000_S100000x1_0 x4)
    (broadcastInDim S100000 ![] bcast_S_S100000 (constant S_ .f32 0x3F800000#32))

/-- An edge's source node, a negative index counted from the end. -/
def srcNode (x1 : IVec S2x1600000 32) : IVec S1600000 32 :=
  select (cmpi .slt (shapeCast S1600000 (extractStridedSlice S1x1600000 ![0, 0] x1 slices_S2x1600000_S1x1600000_0_0) shapeCasts_S1x1600000_S1600000) (broadcastInDim S1600000 ![] bcast_S_S1600000 (constantI S_ 32 0#32)))
    (addi (shapeCast S1600000 (extractStridedSlice S1x1600000 ![0, 0] x1 slices_S2x1600000_S1x1600000_0_0) shapeCasts_S1x1600000_S1600000) (broadcastInDim S1600000 ![] bcast_S_S1600000 (constantI S_ 32 100000#32)))
    (shapeCast S1600000 (extractStridedSlice S1x1600000 ![0, 0] x1 slices_S2x1600000_S1x1600000_0_0) shapeCasts_S1x1600000_S1600000)

/-- An edge's graph: the graph of its source node. -/
def edgeSeg (x4 : IVec S100000 32) (x1 : IVec S2x1600000 32) : IVec S1600000 32 :=
  Host.gather gather_S100000_S1600000x1_S1600000_n_0_n_n_0_1_1 x4
    (broadcastInDim S1600000x1 ![0] bcast_S1600000_S1600000x1_0 (srcNode x1))

/-- Per graph, the sum of the feature rows of its edges. -/
def edgeSum (x2 : FVec F S1600000x32 .f32) (seg : IVec S1600000 32) : FVec F S512x32 .f32 :=
  Host.scatterAdd scatter_S512x32_S1600000x1_S1600000x32_1_0_0_1
    (broadcastInDim S512x32 ![] bcast_S_S512x32 (constant S_ .f32 0x00000000#32))
    (broadcastInDim S1600000x1 ![0] bcast_S1600000_S1600000x1_0 seg) x2

/-- Per graph, the number of its edges. -/
def edgeCnt (seg : IVec S1600000 32) : FVec F S512 .f32 :=
  Host.scatterAdd scatter_S512_S1600000x1_S1600000_n_0_0_1
    (broadcastInDim S512 ![] bcast_S_S512 (constant S_ .f32 0x00000000#32))
    (broadcastInDim S1600000x1 ![0] bcast_S1600000_S1600000x1_0 seg)
    (broadcastInDim S1600000 ![] bcast_S_S1600000 (constant S_ .f32 0x3F800000#32))

/-- The node mean: sums over counts floored at one. -/
def mean128 (s : FVec F S512x128 .f32) (cnt : FVec F S512 .f32) : FVec F S512x128 .f32 :=
  Host.divf s (broadcastInDim S512x128 ![0, 1] bcast_S512x1_S512x128_0_1 (broadcastInDim S512x1 ![0] bcast_S512_S512x1_0
    (maximumf cnt (broadcastInDim S512 ![] bcast_S_S512 (constant S_ .f32 0x3F800000#32)))))

/-- The edge mean: sums over counts floored at one. -/
def mean32 (s : FVec F S512x32 .f32) (cnt : FVec F S512 .f32) : FVec F S512x32 .f32 :=
  Host.divf s (broadcastInDim S512x32 ![0, 1] bcast_S512x1_S512x32_0_1 (broadcastInDim S512x1 ![0] bcast_S512_S512x1_0
    (maximumf cnt (broadcastInDim S512 ![] bcast_S_S512 (constant S_ .f32 0x3F800000#32)))))

/-- The three-layer perceptron over (node mean, edge mean, global features) laid side by side. -/
def mlp (nm : FVec F S512x128 .f32) (em : FVec F S512x32 .f32) (u : FVec F S512x64 .f32) (W1 : FVec F S224x256 .f32)
    (b1 : FVec F S256 .f32) (W2 : FVec F S256x256 .f32) (b2 : FVec F S256 .f32) (W3 : FVec F S256x64 .f32)
    (b3 : FVec F S64 .f32) : FVec F S512x64 .f32 :=
  addf (Host.dotGeneral dot_S512x256_S256x64_S512x64_1_0_0_1_n_n none
    (maximumf (addf (Host.dotGeneral dot_S512x256_S256x256_S512x256_1_0_0_1_n_n none
      (maximumf (addf (Host.dotGeneral dot_S512x224_S224x256_S512x256_1_0_0_1_n_n none
          (concatenate S512x224 1 [⟨S512x128, nm⟩, ⟨S512x32, em⟩, ⟨S512x64, u⟩] concatenates_S512x128_S512x32_S512x64_S512x224_d1) W1)
        (broadcastInDim S512x256 ![0, 1] bcast_S1x256_S512x256_0_1 (broadcastInDim S1x256 ![1] bcast_S256_S1x256_1 b1)))
        (broadcastInDim S512x256 ![] bcast_S_S512x256 (constant S_ .f32 0x00000000#32))) W2)
      (broadcastInDim S512x256 ![0, 1] bcast_S1x256_S512x256_0_1 (broadcastInDim S1x256 ![1] bcast_S256_S1x256_1 b2)))
      (broadcastInDim S512x256 ![] bcast_S_S512x256 (constant S_ .f32 0x00000000#32))) W3)
    (broadcastInDim S512x64 ![0, 1] bcast_S1x64_S512x64_0_1 (broadcastInDim S1x64 ![1] bcast_S64_S1x64_1 b3))

/-- The whole value: the perceptron over the two means and the global features. -/
def out (x0 : FVec F S100000x128 .f32) (x1 : IVec S2x1600000 32) (x2 : FVec F S1600000x32 .f32) (x3 : FVec F S512x64 .f32)
    (x4 : IVec S100000 32) (x5 : FVec F S224x256 .f32) (x6 : FVec F S256 .f32) (x7 : FVec F S256x256 .f32)
    (x8 : FVec F S256 .f32) (x9 : FVec F S256x64 .f32) (x10 : FVec F S64 .f32) : FVec F S512x64 .f32 :=
  mlp (mean128 (nodeSum x0 x4) (nodeCnt x4)) (mean32 (edgeSum x2 (edgeSeg x4 x1)) (edgeCnt (edgeSeg x4 x1))) x3 x5 x6 x7 x8 x9 x10

end Cert.Terms

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.NodeRun.lean ====
/-
  The node region in the program's run: its inputs are the node features and graph ids padded to whole blocks (zero
  rows; the id -1, which is no graph), and what it leaves is the reference's per-graph sums and counts.
-/
import proofs.«426386_j69337952026908_1_alg».proof.Proof.NodeReduce
import proofs.«426386_j69337952026908_1_alg».proof.Proof.Terms
import proofs.«426386_j69337952026908_1_alg».proof.Proof.LibSegmentSum
import Idealize.ShloMosaic.Lib.StableHlo.Run
import Idealize.ShloMosaic.PureOps.IdealRules

set_option maxRecDepth 16384

noncomputable section

namespace Cert.KernelIdeal.NodeRun

open Idealize.ShloMosaic Idealize.ShloMosaic.TcCoe Idealize.SL.Sem Idealize.ShloMosaic.Tactic Idealize.ShloMosaic.StableHlo
open Idealize.ShloMosaic.Pipeline (Dat)
open Cert.KernelIdeal Cert.KernelIdeal.Gen Cert.KernelIdeal.NodeReduce
open Idealize.ShloMosaic.ValueIdx
open Cert.SegmentFold (hot)

/-! ## The region in the program's run: its inputs are the padded arguments, its outputs the reference's segment sums -/

section Run

variable (m : (ℓ : Loc nD τ sig) → Buf (Elt Ideal) ℓ) (ρ : Dev nD → PrngReg)

/-- The region's feature rows are the node features, padded below with zero rows to whole blocks. -/
theorem feat_entry (c : Dev nD) :
    farr (V6 m ρ) c = pad S102400x128 ![0, 0] ![2400, 0] ![0, 0] (m ((c : Thread nD τ).loc main_arg0))
      (sitofp .f32 (constantI S_ 32 0#32) : FVec Ideal S_ .f32) pads_S100000x128_S102400x128_024000_000 h_S_ := by
  show W6 m ρ c (Proc.devRef .tc main_v3) = _
  dsimp only [W6, W5, W4]
  after_results
  rfl

/-- The region's id words are the nodes' graph ids, padded with -1 to whole blocks. -/
theorem seg_entry (c : Dev nD) :
    sarr (V6 m ρ) c = pad S102400 ![0] ![2400] ![0] (m ((c : Thread nD τ).loc main_arg4))
      (constantI S_ 32 4294967295#32) pads_S100000_S102400_024000 h_S_ := by
  show W6 m ρ c (Proc.devRef .tc main_v4) = _
  dsimp only [W6]
  after_results
  rfl

theorem featp_real (c : Dev nD) (d : Fin 128) (e : Fin 100000) :
    featp (V6 m ρ) c d e.val = m ((c : Thread nD τ).loc main_arg0) (ix2 e d) := by
  have he := e.isLt
  have h : e.val < 102400 := by omega
  rw [featp, dif_pos h, feat_entry]
  exact pad_apply_of_inside _ _ _ _ _ _ _ (ix2 ⟨e.val, h⟩ d) (ix2 e d) (by
    intro a
    match a with
    | ⟨0, _⟩ => show e.val = 0 + e.val * (0 + 1); omega
    | ⟨1, _⟩ => show d.val = 0 + d.val * (0 + 1); omega)

theorem segp_real (c : Dev nD) (e : Fin 100000) :
    segp (V6 m ρ) c e.val = m ((c : Thread nD τ).loc main_arg4) (ix1 e) := by
  have he := e.isLt
  have h : e.val < 102400 := by omega
  rw [segp, dif_pos h, seg_entry]
  exact pad_apply_of_inside _ _ _ _ _ _ _ (ix1 ⟨e.val, h⟩) (ix1 e) (by
    intro a
    match a with
    | ⟨0, _⟩ => show e.val = 0 + e.val * (0 + 1); omega)

theorem segp_pad (c : Dev nD) (e : ℕ) (he : 100000 ≤ e) : segp (V6 m ρ) c e = 4294967295#32 := by
  unfold segp
  split
  · rename_i h
    rw [seg_entry]
    refine (pad_apply_of_not_inside _ _ _ _ _ _ _ (ix1 ⟨e, h⟩) (0 : Fin 1) ?_).trans rfl
    show ¬(0 ≤ e ∧ (e - 0) % (0 + 1) = 0 ∧ (e - 0) / (0 + 1) < 100000)
    omega
  · rfl

end Run

section Close

/-- A vector laid as a one-column table reads its entry at each row. -/
theorem col_read {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  rw [← Cert.LibSegmentSum.ixP_eq, StableHlo.Predicate.bcast_col1, Cert.LibSegmentSum.ofFin_eq]

variable (m : (ℓ : Loc nD τ sig) → Buf (Elt Ideal) ℓ) (ρ : Dev nD → PrngReg)

/-- The sums the region leaves are the reference's per-graph sums of the node features. -/
theorem node_sums (c : Dev nD) :
    W7 m ρ c (Proc.devRef .tc main_v5_0)
      = Cert.Terms.nodeSum (F := Ideal) (m ((c : Thread nD τ).loc main_arg0)) (m ((c : Thread nD τ).loc main_arg4)) := by
  rw [show W7 m ρ c (Proc.devRef .tc main_v5_0) = (dat0 (V6 m ρ) c).arrAt 2 cfg0.N from W7_arr m ρ c 2, sums_final (V6 m ρ) tl tl_val c]
  funext j
  obtain ⟨b, d, rfl⟩ : ∃ (b : Fin 512) (d : Fin 128), j = ix2 b d := ⟨j 0, j 1, eq_ix2 j⟩
  refine ((acc (V6 m ρ) c tl.val tl.isLt).1 b d).trans ?_
  simp only [blockSum]
  rw [tl_val, Cert.SegmentFold.sum_blocks 4096 (fun e => hot b (segp (V6 m ρ) c e) * featp (V6 m ρ) c d e) (24 + 1),
    Cert.SegmentFold.sum_hot_eq_filter (N := 100000) (by decide) b (segp (V6 m ρ) c) (featp (V6 m ρ) c d) (segp_pad m ρ c)]
  unfold Cert.Terms.nodeSum
  refine Eq.symm ((Cert.LibSegmentSum.scatterAdd_segRows _ rfl rfl rfl rfl _ _ _ b d).trans ?_)
  rw [show (broadcastInDim Cert.ReferenceIdeal.S512x128 ![] Cert.ReferenceIdeal.Facts₀.bcast_S_S512x128
    (constant (F := Ideal) Cert.ReferenceIdeal.S_ .f32 0x00000000#32)) (ix2 b d) = 0 from Ideal.ofBits_zero_f32, zero_add]
  refine Finset.sum_congr (Finset.filter_congr fun e _ => ?_) fun e _ => ?_
  · rw [segp_real m ρ c e, col_read]
  · exact (featp_real m ρ c d e).symm

/-- The counts the region leaves are the reference's per-graph node counts. -/
theorem node_cnts (c : Dev nD) :
    W7 m ρ c (Proc.devRef .tc main_v5_1) = Cert.Terms.nodeCnt (F := Ideal) (m ((c : Thread nD τ).loc main_arg4)) := by
  rw [show W7 m ρ c (Proc.devRef .tc main_v5_1) = (dat0 (V6 m ρ) c).arrAt 3 cfg0.N from W7_arr m ρ c 3, cnts_final (V6 m ρ) tl tl_val c]
  funext j
  obtain ⟨b, rfl⟩ : ∃ b : Fin 512, j = ix1 b := ⟨j 0, eq_ix1 j⟩
  refine ((acc (V6 m ρ) c tl.val tl.isLt).2 b).trans ?_
  simp only [blockCnt]
  rw [tl_val, Cert.SegmentFold.sum_blocks 4096 (fun e => hot b (segp (V6 m ρ) c e)) (24 + 1),
    Cert.SegmentFold.sum_hot_eq_count (N := 100000) (by decide) b (segp (V6 m ρ) c) (segp_pad m ρ c)]
  unfold Cert.Terms.nodeCnt
  refine Eq.symm ((Cert.LibSegmentSum.scatterAdd_seg1 _ rfl rfl rfl rfl _ _ _ b).trans ?_)
  rw [show (broadcastInDim Cert.ReferenceIdeal.S512 ![] Cert.ReferenceIdeal.Facts₀.bcast_S_S512
    (constant (F := Ideal) Cert.ReferenceIdeal.S_ .f32 0x00000000#32)) (ix1 b) = 0 from Ideal.ofBits_zero_f32, zero_add]
  refine Finset.sum_congr (Finset.filter_congr fun e _ => ?_) fun e _ => ?_
  · rw [segp_real m ρ c e, col_read]
  · exact (show Ideal.ofBits .f32 0x3F800000#32 = 1 from IdealRules.sign_bit.ideal_onePat .f32)

end Close

end Cert.KernelIdeal.NodeRun

end
-- ==== Proof.KernelTerms.lean ====
/-
  The kernel program's host-side index read, as one term: jnp.take of the graph ids at the edges' source nodes — a
  negative index counted from the end, the id read where the index is in range and the least integer elsewhere —
  spelt exactly as the kernel program applies its operations.
-/
import proofs.«426386_j69337952026908_1_alg».proof.Proof.Gen.KernelIdeal

noncomputable section

namespace Cert.KernelTerms

open Idealize.ShloMosaic Cert.KernelIdeal Cert.KernelIdeal.Gen

/-- Row 0 of the edge list: each edge's source node. -/
def srcRow (x1 : IVec S2x1600000 32) : IVec S1600000 32 :=
  shapeCast S1600000 (extractStridedSlice S1x1600000 ![0, 0] x1 slices_S2x1600000_S1x1600000_0_0) shapeCasts_S1x1600000_S1600000

/-- The source node with a negative index counted from the end, as a one-column table. -/
def wrapped (x1 : IVec S2x1600000 32) : IVec S1600000x1 32 :=
  broadcastInDim S1600000x1 ![0] bcast_S1600000_S1600000x1_0
    (select (cmpi .slt (srcRow x1) (broadcastInDim S1600000 ![] bcast_S_S1600000 (constantI S_ 32 0#32)))
      (addi (srcRow x1) (broadcastInDim S1600000 ![] bcast_S_S1600000 (constantI S_ 32 100000#32))) (srcRow x1))

/-- jnp.take of the graph ids at the source nodes: the id where the index is in range, the least integer elsewhere. -/
def take (x4 : IVec S100000 32) (x1 : IVec S2x1600000 32) : IVec S1600000 32 :=
  select
    (Host.reduce IntOp.andi
      (andi (cmpi .sge (wrapped x1) (broadcastInDim S1600000x1 ![] bcast_S_S1600000x1 (constantI S_ 32 0#32)))
        (cmpi .sle (wrapped x1) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)
    (Host.gather gather_S100000_S1600000x1_S1600000_n_0_n_n_0_1_1 x4 (wrapped x1))
    (broadcastInDim S1600000 ![] bcast_S_S1600000 (constantI S_ 32 2147483648#32))

end Cert.KernelTerms

end
-- ==== Proof.IndexRange.lean ====
/-
  The edges' source nodes are in range, and in range the kernel's index read is the reference's.

  The precondition says every source-node index e satisfies -100000 ≤ e < 100000 (an index into the 100000 graph ids,
  a negative one counted from the end). Counted from the end it lies in [0, 100000); there jnp.take (the least integer
  outside the range) and plain indexing (clamped outside the range) read the same id.
-/
import proofs.«426386_j69337952026908_1_alg».proof.Defs
import proofs.«426386_j69337952026908_1_alg».proof.Proof.Gen.Pre_finite_inputs
import proofs.«426386_j69337952026908_1_alg».proof.Proof.Gen.KernelIdeal
import proofs.«426386_j69337952026908_1_alg».proof.Proof.Terms
import proofs.«426386_j69337952026908_1_alg».proof.Proof.KernelTerms
import proofs.«426386_j69337952026908_1_alg».proof.Proof.LibSegmentSum
import Idealize.ShloMosaic.Lib.ValueIdx
import Idealize.ShloMosaic.Lib.ValueLayout
import Idealize.ShloMosaic.Lib.ReduceAll
import Idealize.ShloMosaic.Lib.StableHlo.Predicate

set_option maxRecDepth 16384

noncomputable section

namespace Cert.IndexRange

open Idealize.ShloMosaic Idealize.ShloMosaic.ValueIdx Idealize.SL.Sem

/-- Every edge's source-node index, read signed, lies in [-100000, 100000). -/
def InRange (x1 : IVec Cert.KernelIdeal.S2x1600000 32) : Prop :=
  ∀ e : Fin 1600000, (-100000 : ℤ) ≤ (x1 (ix2 (0 : Fin 2) e)).toInt ∧ (x1 (ix2 (0 : Fin 2) e)).toInt < 100000

/-- Row 0 of the edge list, read at edge e, is the list's entry (0, e): the reshape of the one-row slice keeps the
    row-major position, and the slice starts at the origin. -/
private theorem srcRow_apply (x1 : IVec Cert.KernelIdeal.S2x1600000 32) (e : Fin 1600000) :
    Cert.KernelTerms.srcRow x1 (ix1 e) = x1 (ix2 (0 : Fin 2) e) := by
  unfold Cert.KernelTerms.srcRow
  rw [shapeCast_1a_a_apply]
  unfold extractStridedSlice
  refine congrArg x1 (funext fun a => ?_)
  match a with
  | ⟨0, _⟩ => exact Fin.ext (by simp)
  | ⟨1, _⟩ => exact Fin.ext (by simp)

/-- The predicate's last conjunct, read back. The predicate is a chain of "and"s of all-reductions; its last link is the
    all-reduction, over the edges, of (-100000 ≤ row 0) and (row 0 < 100000), compared signed. The chain is 1, so the last
    link is 1, so every element of the reduced array is 1, so both comparisons hold at every edge. -/
private theorem range_of_fn (a0 : FVec Ideal Cert.Pre_finite_inputs.S100000x128 .f32) (a1 : IVec Cert.Pre_finite_inputs.S2x1600000 32)
    (a2 : FVec Ideal Cert.Pre_finite_inputs.S1600000x32 .f32) (a3 : FVec Ideal Cert.Pre_finite_inputs.S512x64 .f32)
    (a4 : IVec Cert.Pre_finite_inputs.S100000 32) (a5 : FVec Ideal Cert.Pre_finite_inputs.S224x256 .f32)
    (a6 : FVec Ideal Cert.Pre_finite_inputs.S256 .f32) (a7 : FVec Ideal Cert.Pre_finite_inputs.S256x256 .f32)
    (a8 : FVec Ideal Cert.Pre_finite_inputs.S256 .f32) (a9 : FVec Ideal Cert.Pre_finite_inputs.S256x64 .f32)
    (a10 : FVec Ideal Cert.Pre_finite_inputs.S64 .f32)
    (h : Cert.Pre_finite_inputs.fn (F := Ideal) a0 a1 a2 a3 a4 a5 a6 a7 a8 a9 a10 = fun _ => 1#1) : InRange a1 := by
  intro e
  -- the scalar shape has one index
  haveI : Subsingleton Cert.Pre_finite_inputs.S_.Idx := ⟨fun _ _ => funext fun d => d.elim0⟩
  have h0 := congrFun h ix0
  dsimp only [Cert.Pre_finite_inputs.fn, Cert.Pre_finite_inputs.fn_part1, Cert.Pre_finite_inputs.fn_part2,
    Cert.Pre_finite_inputs.fn_part3] at h0
  -- the last link of the chain, then its element at edge e, then the two comparisons
  have h1 := (IntOp.andi_eq_one.1 h0).2
  have h2 := Host.reduce_andi_all _ _ _ _ _ h1 (ix1 e)
  obtain ⟨hge, hlt⟩ := IntOp.andi_eq_one.1 h2
  have hge' := IntOp.cmpi_sge.1 hge
  have hlt' := IntOp.cmpi_slt.1 hlt
  change (4294867296#32 : BitVec 32).toInt ≤ (Cert.KernelTerms.srcRow a1 (ix1 e)).toInt at hge'
  change (Cert.KernelTerms.srcRow a1 (ix1 e)).toInt < (100000#32 : BitVec 32).toInt at hlt'
  rw [srcRow_apply] at hge' hlt'
  -- the two bounds, read signed: the word 4294867296 is -100000
  have c1 : (4294867296#32 : BitVec 32).toInt = -100000 := by decide
  have c2 : (100000#32 : BitVec 32).toInt = 100000 := by decide
  rw [c1] at hge'
  rw [c2] at hlt'
  exact ⟨hge', hlt'⟩

/-- The precondition gives the range. -/
theorem range_of_pre (m : (ℓ : Loc Cert.KernelIdeal.nD Cert.KernelIdeal.τ Cert.KernelIdeal.sig) → Buf (Elt Ideal) ℓ)
    (h : Cert.Pre_KernelIdeal m) (c : Dev Cert.KernelIdeal.nD) :
    InRange (m ((c.tc : Thread Cert.KernelIdeal.nD Cert.KernelIdeal.τ).loc Cert.KernelIdeal.main_arg1)) :=
  range_of_fn _ _ _ _ _ _ _ _ _ _ _ (h c)

/-- A word in [-100000, 100000), a negative one counted from the end of the 100000 ids, lands in [0, 99999]: adding
    100000 to a word in [-100000, 0) does not wrap around at 32 bits. -/
private theorem wrap_range (r : BitVec 32) (h1 : -100000 ≤ r.toInt) (h2 : r.toInt < 100000) :
    0 ≤ (Scalar.select (IntOp.cmpi .slt r 0#32) (IntOp.addi r 100000#32) r).toInt ∧
      (Scalar.select (IntOp.cmpi .slt r 0#32) (IntOp.addi r 100000#32) r).toInt ≤ 99999 := by
  have z : (0#32 : BitVec 32).toInt = 0 := by decide
  have c : (100000#32 : BitVec 32).toInt = 100000 := by decide
  by_cases hneg : r.toInt < 0
  · have hb : IntOp.cmpi .slt r 0#32 = 1#1 := IntOp.cmpi_slt.2 (by rw [z]; exact hneg)
    rw [hb, select_one]
    show 0 ≤ (r + 100000#32).toInt ∧ (r + 100000#32).toInt ≤ 99999
    rw [BitVec.toInt_add, c, Int.bmod_eq_of_le (by omega) (by omega)]
    omega
  · have hb : IntOp.cmpi .slt r 0#32 = 0#1 :=
      eq_zero_of_ne_one (fun hh => hneg (by have := IntOp.cmpi_slt.1 hh; rwa [z] at this))
    rw [hb, select_zero]
    omega

/-- In range, every edge's source node, counted from the end when negative, lies in [0, 99999]. -/
private theorem srcNode_range (x1 : IVec Cert.KernelIdeal.S2x1600000 32) (hr : InRange x1) (j : Cert.KernelIdeal.S1600000.Idx) :
    0 ≤ (Cert.Terms.srcNode x1 j).toInt ∧ (Cert.Terms.srcNode x1 j).toInt ≤ 99999 := by
  obtain ⟨e, rfl⟩ : ∃ e : Fin 1600000, j = ix1 e := ⟨j 0, eq_ix1 j⟩
  have := wrap_range (x1 (ix2 0 e)) (hr e).1 (hr e).2
  rw [← srcRow_apply x1 e] at this
  exact this

/-- A fold of "and" from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l (fun n hn => h n (List.mem_cons_of_mem _ hn))

/-- An "and" reduction from 1 of an array that is 1 everywhere is 1 everywhere. -/
private theorem reduce_andi_one {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x _ (fun n _ => hx n)

/-- In range the kernel's jnp.take of the graph ids is the reference's indexed read. -/
theorem take_eq_edgeSeg (x4 : IVec Cert.KernelIdeal.S100000 32) (x1 : IVec Cert.KernelIdeal.S2x1600000 32) (hr : InRange x1) :
    Cert.KernelTerms.take x4 x1 = Cert.Terms.edgeSeg x4 x1 := by
  funext i
  unfold Cert.KernelTerms.take
  -- the in-range test is 1 at every edge, so the select reads the gathered id
  rw [select_apply, reduce_andi_one, select_one]
  · -- the two gathers are the same term: the wrapped index table is the reference's source node as a one-column table
    rfl
  · intro k; rfl
  · intro k
    -- the table's entry at k is the wrapped source node of some edge, which lies in [0, 99999]
    obtain ⟨j, hj⟩ : ∃ j, Cert.KernelTerms.wrapped x1 k = Cert.Terms.srcNode x1 j := ⟨_, rfl⟩
    have hw := srcNode_range x1 hr j
    rw [← hj] at hw
    have z : (0#32 : BitVec 32).toInt = 0 := by decide
    have c : (99999#32 : BitVec 32).toInt = 99999 := by decide
    refine IntOp.andi_eq_one.2 ⟨IntOp.cmpi_sge.2 ?_, IntOp.cmpi_sle.2 ?_⟩
    · show (0#32 : BitVec 32).toInt ≤ (Cert.KernelTerms.wrapped x1 k).toInt
      rw [z]; exact hw.1
    · show (Cert.KernelTerms.wrapped x1 k).toInt ≤ (99999#32 : BitVec 32).toInt
      rw [c]; exact hw.2

end Cert.IndexRange

end
-- ==== Proof.EdgeRun.lean ====
/-
  The edge region in the program's run: its inputs are the edge features padded with zero rows to whole blocks and the
  edges' graph ids — the graph id of each edge's source node, read by jnp.take — padded with -1, which is no graph.
  Where every source-node index is in range the ids are the reference's, and what the region leaves is the
  reference's per-graph sums and counts of the edges.
-/
import proofs.«426386_j69337952026908_1_alg».proof.Proof.EdgeReduce
import proofs.«426386_j69337952026908_1_alg».proof.Proof.NodeRun
import proofs.«426386_j69337952026908_1_alg».proof.Proof.KernelTerms
import proofs.«426386_j69337952026908_1_alg».proof.Proof.IndexRange
import Idealize.ShloMosaic.Lib.Pipeline.Frame

set_option maxRecDepth 16384

noncomputable section

namespace Cert.KernelIdeal.EdgeRun

open Idealize.ShloMosaic Idealize.ShloMosaic.TcCoe Idealize.SL.Sem Idealize.ShloMosaic.Tactic Idealize.ShloMosaic.StableHlo
open Idealize.ShloMosaic.Pipeline (Dat)
open Cert.KernelIdeal Cert.KernelIdeal.Gen Cert.KernelIdeal.EdgeReduce
open Idealize.ShloMosaic.ValueIdx
open Cert.SegmentFold (hot)

section Run

variable (m : (ℓ : Loc nD τ sig) → Buf (Elt Ideal) ℓ) (ρ : Dev nD → PrngReg)

/-- The stretch's last operation: the select. -/
abbrev lastOp : HloOp τ sig (Elt Ideal) :=
  StableHlo.TRef.ternary (.of main_call0_v12 : StableHlo.TRef sig ⟨S1600000, .i1⟩) (.of main_call0_v13 : StableHlo.TRef sig ⟨S1600000, .i32⟩) (.of main_call0_v14 : StableHlo.TRef sig ⟨S1600000, .i32⟩) (.of main_v2 : StableHlo.TRef sig ⟨S1600000, .i32⟩) select

theorem split : (hostOps0_1 : List (HloOp τ sig (Elt Ideal))) = List.take 21 hostOps0_1 ++ [lastOp] := rfl

set_option maxHeartbeats 1000000 in
/-- The select reads its three operands as the stretch leaves them. -/
theorem peel (V : Valuation τ sig (Elt Ideal)) :
    StableHlo.after hostOps0_1 V (Proc.devRef .tc main_v2)
      = select (StableHlo.after hostOps0_1 V (Proc.devRef .tc main_call0_v12))
          (StableHlo.after hostOps0_1 V (Proc.devRef .tc main_call0_v13))
          (StableHlo.after hostOps0_1 V (Proc.devRef .tc main_call0_v14)) := by
  rw [split, StableHlo.after_append]
  generalize StableHlo.after (List.take 21 hostOps0_1) V = V'
  after_results
  rfl

set_option maxHeartbeats 1000000 in
/-- The in-range test, over the unit axis of the one-column index table. -/
theorem inRange_at (c : Dev nD) :
    StableHlo.after hostOps0_1 (W1 m ρ c) (Proc.devRef .tc main_call0_v12)
      = Host.reduce IntOp.andi (andi (cmpi .sge (Cert.KernelTerms.wrapped (m ((c : Thread nD τ).loc main_arg1))) (broadcastInDim S1600000x1 ![] bcast_S_S1600000x1 (constantI S_ 32 0#32)))
        (cmpi .sle (Cert.KernelTerms.wrapped (m ((c : Thread nD τ).loc main_arg1))) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_ := by
  after_results
  simp only [TRef.toBuf, TRef.ofBuf, cast_eq]
  refine congrArg₂ (fun x v => Host.reduce IntOp.andi x v reducesTo_S1600000x1_S1600000_d1 h_S_) ?_ ?_
  · rfl
  · rfl

set_option maxHeartbeats 1000000 in
/-- The ids read at the wrapped indices. -/
theorem gathered_at (c : Dev nD) :
    StableHlo.after hostOps0_1 (W1 m ρ c) (Proc.devRef .tc main_call0_v13)
      = Host.gather gather_S100000_S1600000x1_S1600000_n_0_n_n_0_1_1 (m ((c : Thread nD τ).loc main_arg4))
          (Cert.KernelTerms.wrapped (m ((c : Thread nD τ).loc main_arg1))) := by
  after_results
  rfl

set_option maxHeartbeats 1000000 in
/-- The fill: the least integer everywhere. -/
theorem fill_at (c : Dev nD) :
    StableHlo.after hostOps0_1 (W1 m ρ c) (Proc.devRef .tc main_call0_v14)
      = broadcastInDim S1600000 ![] bcast_S_S1600000 (constantI S_ 32 2147483648#32) := by
  after_results
  rfl

/-- The edges' graph ids as the first host stretches compute them: jnp.take of the graph ids at the source nodes. -/
theorem take_at2 (c : Dev nD) :
    W2 m ρ c (Proc.devRef .tc main_v2)
      = Cert.KernelTerms.take (m ((c : Thread nD τ).loc main_arg4)) (m ((c : Thread nD τ).loc main_arg1)) := by
  show StableHlo.after hostOps0_1 (W1 m ρ c) (Proc.devRef .tc main_v2) = _
  rw [peel, inRange_at, gathered_at, fill_at]
  rfl

set_option maxHeartbeats 1000000 in
/-- No later stretch before the first region writes them. -/
theorem take_carried (c : Dev nD) : W6 m ρ c (Proc.devRef .tc main_v2) = W2 m ρ c (Proc.devRef .tc main_v2) := by
  dsimp only [W6, W5, W4, W3]
  after_results

/-- So at the first region's entry they are jnp.take of the graph ids at the source nodes. -/
theorem take_entry (c : Dev nD) :
    W6 m ρ c (Proc.devRef .tc main_v2)
      = Cert.KernelTerms.take (m ((c : Thread nD τ).loc main_arg4)) (m ((c : Thread nD τ).loc main_arg1)) :=
  (take_carried m ρ c).trans (take_at2 m ρ c)

/-- The region's feature rows are the edge features, padded below with zero rows to whole blocks. -/
theorem feat_entry (c : Dev nD) :
    farr (V11 m ρ) c = pad S1601536x32 ![0, 0] ![1536, 0] ![0, 0] (m ((c : Thread nD τ).loc main_arg2))
      (sitofp .f32 (constantI S_ 32 0#32) : FVec Ideal S_ .f32) pads_S1600000x32_S1601536x32_015360_000 h_S_ := by
  have h1 : W11 m ρ c (Proc.devRef .tc main_v11) = pad S1601536x32 ![0, 0] ![1536, 0] ![0, 0]
      (W7 m ρ c (Proc.devRef .tc main_arg2)) (sitofp .f32 (constantI S_ 32 0#32) : FVec Ideal S_ .f32)
      pads_S1600000x32_S1601536x32_015360_000 h_S_ := by
    dsimp only [W11, W10, W9]
    after_results
    rfl
  have h2 : W6 m ρ c (Proc.devRef .tc main_arg2) = m ((c : Thread nD τ).loc main_arg2) := by after_results
  show W11 m ρ c (Proc.devRef .tc main_v11) = _
  rw [h1, W7_of_ne m ρ c main_arg2 (by decide), h2]

/-- The region's id words are the edges' graph ids, padded with -1 to whole blocks. -/
theorem seg_entry (c : Dev nD) :
    sarr (V11 m ρ) c = pad S1601536 ![0] ![1536] ![0]
      (Cert.KernelTerms.take (m ((c : Thread nD τ).loc main_arg4)) (m ((c : Thread nD τ).loc main_arg1)))
      (constantI S_ 32 4294967295#32) pads_S1600000_S1601536_015360 h_S_ := by
  have h1 : W11 m ρ c (Proc.devRef .tc main_v12) = pad S1601536 ![0] ![1536] ![0] (W7 m ρ c (Proc.devRef .tc main_v2))
      (constantI S_ 32 4294967295#32) pads_S1600000_S1601536_015360 h_S_ := by
    dsimp only [W11]
    after_results
    rfl
  show W11 m ρ c (Proc.devRef .tc main_v12) = _
  rw [h1, W7_of_ne m ρ c main_v2 (by decide), take_entry]

theorem featp_real (c : Dev nD) (d : Fin 32) (e : Fin 1600000) :
    featp (V11 m ρ) c d e.val = m ((c : Thread nD τ).loc main_arg2) (ix2 e d) := by
  have he := e.isLt
  have h : e.val < 1601536 := by omega
  rw [featp, dif_pos h, feat_entry]
  exact pad_apply_of_inside _ _ _ _ _ _ _ (ix2 ⟨e.val, h⟩ d) (ix2 e d) (by
    intro a
    match a with
    | ⟨0, _⟩ => show e.val = 0 + e.val * (0 + 1); omega
    | ⟨1, _⟩ => show d.val = 0 + d.val * (0 + 1); omega)

theorem segp_real (c : Dev nD) (e : Fin 1600000) :
    segp (V11 m ρ) c e.val
      = Cert.KernelTerms.take (m ((c : Thread nD τ).loc main_arg4)) (m ((c : Thread nD τ).loc main_arg1)) (ix1 e) := by
  have he := e.isLt
  have h : e.val < 1601536 := by omega
  rw [segp, dif_pos h, seg_entry]
  exact pad_apply_of_inside _ _ _ _ _ _ _ (ix1 ⟨e.val, h⟩) (ix1 e) (by
    intro a
    match a with
    | ⟨0, _⟩ => show e.val = 0 + e.val * (0 + 1); omega)

theorem segp_pad (c : Dev nD) (e : ℕ) (he : 1600000 ≤ e) : segp (V11 m ρ) c e = 4294967295#32 := by
  unfold segp
  split
  · rename_i h
    rw [seg_entry]
    refine (pad_apply_of_not_inside _ _ _ _ _ _ _ (ix1 ⟨e, h⟩) (0 : Fin 1) ?_).trans rfl
    show ¬(0 ≤ e ∧ (e - 0) % (0 + 1) = 0 ∧ (e - 0) / (0 + 1) < 1600000)
    omega
  · rfl

end Run

section Close

variable (m : (ℓ : Loc nD τ sig) → Buf (Elt Ideal) ℓ) (ρ : Dev nD → PrngReg)

/-- The sums the region leaves are the reference's per-graph sums of the edge features. -/
theorem edge_sums (c : Dev nD) (hr : Cert.IndexRange.InRange (m ((c : Thread nD τ).loc main_arg1))) :
    W12 m ρ c (Proc.devRef .tc main_v13_0)
      = Cert.Terms.edgeSum (F := Ideal) (m ((c : Thread nD τ).loc main_arg2))
          (Cert.Terms.edgeSeg (m ((c : Thread nD τ).loc main_arg4)) (m ((c : Thread nD τ).loc main_arg1))) := by
  rw [show W12 m ρ c (Proc.devRef .tc main_v13_0) = (dat1 (V11 m ρ) c).arrAt 2 cfg1.N from W12_arr m ρ c 2, sums_final (V11 m ρ) tl tl_val c]
  funext j
  obtain ⟨b, d, rfl⟩ : ∃ (b : Fin 512) (d : Fin 32), j = ix2 b d := ⟨j 0, j 1, eq_ix2 j⟩
  refine ((acc (V11 m ρ) c tl.val tl.isLt).1 b d).trans ?_
  simp only [blockSum]
  rw [tl_val, Cert.SegmentFold.sum_blocks 4096 (fun e => hot b (segp (V11 m ρ) c e) * featp (V11 m ρ) c d e) (390 + 1),
    Cert.SegmentFold.sum_hot_eq_filter (N := 1600000) (by decide) b (segp (V11 m ρ) c) (featp (V11 m ρ) c d) (segp_pad m ρ c)]
  unfold Cert.Terms.edgeSum
  refine Eq.symm ((Cert.LibSegmentSum.scatterAdd_segRows _ rfl rfl rfl rfl _ _ _ b d).trans ?_)
  rw [show (broadcastInDim Cert.ReferenceIdeal.S512x32 ![] Cert.ReferenceIdeal.Facts₀.bcast_S_S512x32
    (constant (F := Ideal) Cert.ReferenceIdeal.S_ .f32 0x00000000#32)) (ix2 b d) = 0 from Ideal.ofBits_zero_f32, zero_add]
  refine Finset.sum_congr (Finset.filter_congr fun e _ => ?_) fun e _ => ?_
  · rw [segp_real m ρ c e, Cert.IndexRange.take_eq_edgeSeg _ _ hr, Cert.KernelIdeal.NodeRun.col_read]
  · exact (featp_real m ρ c d e).symm

/-- The counts the region leaves are the reference's per-graph edge counts. -/
theorem edge_cnts (c : Dev nD) (hr : Cert.IndexRange.InRange (m ((c : Thread nD τ).loc main_arg1))) :
    W12 m ρ c (Proc.devRef .tc main_v13_1)
      = Cert.Terms.edgeCnt (F := Ideal)
          (Cert.Terms.edgeSeg (m ((c : Thread nD τ).loc main_arg4)) (m ((c : Thread nD τ).loc main_arg1))) := by
  rw [show W12 m ρ c (Proc.devRef .tc main_v13_1) = (dat1 (V11 m ρ) c).arrAt 3 cfg1.N from W12_arr m ρ c 3, cnts_final (V11 m ρ) tl tl_val c]
  funext j
  obtain ⟨b, rfl⟩ : ∃ b : Fin 512, j = ix1 b := ⟨j 0, eq_ix1 j⟩
  refine ((acc (V11 m ρ) c tl.val tl.isLt).2 b).trans ?_
  simp only [blockCnt]
  rw [tl_val, Cert.SegmentFold.sum_blocks 4096 (fun e => hot b (segp (V11 m ρ) c e)) (390 + 1),
    Cert.SegmentFold.sum_hot_eq_count (N := 1600000) (by decide) b (segp (V11 m ρ) c) (segp_pad m ρ c)]
  unfold Cert.Terms.edgeCnt
  refine Eq.symm ((Cert.LibSegmentSum.scatterAdd_seg1 _ rfl rfl rfl rfl _ _ _ b).trans ?_)
  rw [show (broadcastInDim Cert.ReferenceIdeal.S512 ![] Cert.ReferenceIdeal.Facts₀.bcast_S_S512
    (constant (F := Ideal) Cert.ReferenceIdeal.S_ .f32 0x00000000#32)) (ix1 b) = 0 from Ideal.ofBits_zero_f32, zero_add]
  refine Finset.sum_congr (Finset.filter_congr fun e _ => ?_) fun e _ => ?_
  · rw [segp_real m ρ c e, Cert.IndexRange.take_eq_edgeSeg _ _ hr, Cert.KernelIdeal.NodeRun.col_read]
  · exact (show Ideal.ofBits .f32 0x3F800000#32 = 1 from IdealRules.sign_bit.ideal_onePat .f32)

end Close

end Cert.KernelIdeal.EdgeRun

end
-- ==== Proof.MlpRun.lean ====
/-
  The perceptron region read as values: a grid of one point whose every window's block is its whole array, so the
  result array ends at the body's one store — the body's arithmetic applied to the arrays as the region finds them.
-/
import proofs.«426386_j69337952026908_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal

set_option maxRecDepth 16384

noncomputable section

namespace Cert.KernelIdeal.MlpRun

open Idealize.ShloMosaic Idealize.ShloMosaic.TcCoe Idealize.SL.Sem Idealize.ShloMosaic.Tactic
open Idealize.ShloMosaic.Pipeline (Dat)
open Cert.KernelIdeal Cert.KernelIdeal.Gen
open Idealize.ShloMosaic.ValueIdx

variable (V : (c : Dev nD) → (b : Ref sig .tc) → Buf (Elt Ideal) ((c : Thread nD τ).loc b))

/-- What the region's one store writes: the body's arithmetic over the arrays as the region finds them. -/
abbrev mlpEnd (c : Dev nD) : Buf (Elt Ideal) ((c : Thread nD τ).loc main_v22) :=
  k2_pay1 (F := Ideal)
    (k2_pay2 (F := Ideal) (V c main_v10) (V c main_v18) (V c main_arg3) (V c main_v19) (V c main_v20) (V c main_v21)
      (V c main_arg6) (V c main_arg7) (V c main_arg8))
    (k2_pay3 (F := Ideal)) (V c main_arg9) (V c main_arg10)

private theorem hz2 : (![0, 0] : Fin 2 → Nat) = fun _ => 0 := funext fun a => by fin_cases a <;> rfl
private theorem hz1 : (![0] : Fin 1 → Nat) = fun _ => 0 := funext fun a => by fin_cases a; rfl

/-- The grid's one point. -/
private abbrev t0 : Fin cfg2.N := ⟨0, by rw [show cfg2.N = 1 from N_2]; decide⟩

/-- Every point of the grid is that one. -/
private theorem eq_t0 (t : Fin cfg2.N) : t = t0 :=
  Fin.ext (by have := t.isLt; have : cfg2.N = 1 := N_2; show t.val = 0; omega)

/-- Window 0's block at the one point is its whole array: the index map is zero and the block is the array's size. -/
private theorem blk0 (c : Dev nD) : iblk2 V c 0 t0 = V c main_v10 := by
  unfold iblk2
  show ((cfg2.win 0).blk t0).view.read (Elt Ideal) (V c main_v10) = _
  have hz' : (fun a => win2_0.index t0 a * main_v10.ty.shape.size a) = fun _ => 0 := funext fun a => by fin_cases a <;> decide
  exact Memref.read_access_unit_zero (Elt Ideal) main_v10 hz' (fun a => by rw [congrFun hz' a]; simp) (V c main_v10)

/-- Window 1's block at the one point is its whole array: the index map is zero and the block is the array's size. -/
private theorem blk1 (c : Dev nD) : iblk2 V c 1 t0 = V c main_v18 := by
  unfold iblk2
  show ((cfg2.win 1).blk t0).view.read (Elt Ideal) (V c main_v18) = _
  have hz' : (fun a => win2_1.index t0 a * main_v18.ty.shape.size a) = fun _ => 0 := funext fun a => by fin_cases a <;> decide
  exact Memref.read_access_unit_zero (Elt Ideal) main_v18 hz' (fun a => by rw [congrFun hz' a]; simp) (V c main_v18)

/-- Window 2's block at the one point is its whole array: the index map is zero and the block is the array's size. -/
private theorem blk2 (c : Dev nD) : iblk2 V c 2 t0 = V c main_arg3 := by
  unfold iblk2
  show ((cfg2.win 2).blk t0).view.read (Elt Ideal) (V c main_arg3) = _
  have hz' : (fun a => win2_2.index t0 a * main_arg3.ty.shape.size a) = fun _ => 0 := funext fun a => by fin_cases a <;> decide
  exact Memref.read_access_unit_zero (Elt Ideal) main_arg3 hz' (fun a => by rw [congrFun hz' a]; simp) (V c main_arg3)

/-- Window 3's block at the one point is its whole array: the index map is zero and the block is the array's size. -/
private theorem blk3 (c : Dev nD) : iblk2 V c 3 t0 = V c main_v19 := by
  unfold iblk2
  show ((cfg2.win 3).blk t0).view.read (Elt Ideal) (V c main_v19) = _
  have hz' : (fun a => win2_3.index t0 a * main_v19.ty.shape.size a) = fun _ => 0 := funext fun a => by fin_cases a <;> decide
  exact Memref.read_access_unit_zero (Elt Ideal) main_v19 hz' (fun a => by rw [congrFun hz' a]; simp) (V c main_v19)

/-- Window 4's block at the one point is its whole array: the index map is zero and the block is the array's size. -/
private theorem blk4 (c : Dev nD) : iblk2 V c 4 t0 = V c main_v20 := by
  unfold iblk2
  show ((cfg2.win 4).blk t0).view.read (Elt Ideal) (V c main_v20) = _
  have hz' : (fun a => win2_4.index t0 a * main_v20.ty.shape.size a) = fun _ => 0 := funext fun a => by fin_cases a <;> decide
  exact Memref.read_access_unit_zero (Elt Ideal) main_v20 hz' (fun a => by rw [congrFun hz' a]; simp) (V c main_v20)

/-- Window 5's block at the one point is its whole array: the index map is zero and the block is the array's size. -/
private theorem blk5 (c : Dev nD) : iblk2 V c 5 t0 = V c main_v21 := by
  unfold iblk2
  show ((cfg2.win 5).blk t0).view.read (Elt Ideal) (V c main_v21) = _
  have hz' : (fun a => win2_5.index t0 a * main_v21.ty.shape.size a) = fun _ => 0 := funext fun a => by fin_cases a <;> decide
  exact Memref.read_access_unit_zero (Elt Ideal) main_v21 hz' (fun a => by rw [congrFun hz' a]; simp) (V c main_v21)

/-- Window 6's block at the one point is its whole array: the index map is zero and the block is the array's size. -/
private theorem blk6 (c : Dev nD) : iblk2 V c 6 t0 = V c main_arg6 := by
  unfold iblk2
  show ((cfg2.win 6).blk t0).view.read (Elt Ideal) (V c main_arg6) = _
  have hz' : (fun a => win2_6.index t0 a * main_arg6.ty.shape.size a) = fun _ => 0 := funext fun a => by fin_cases a; decide
  exact Memref.read_access_unit_zero (Elt Ideal) main_arg6 hz' (fun a => by rw [congrFun hz' a]; simp) (V c main_arg6)

/-- Window 7's block at the one point is its whole array: the index map is zero and the block is the array's size. -/
private theorem blk7 (c : Dev nD) : iblk2 V c 7 t0 = V c main_arg7 := by
  unfold iblk2
  show ((cfg2.win 7).blk t0).view.read (Elt Ideal) (V c main_arg7) = _
  have hz' : (fun a => win2_7.index t0 a * main_arg7.ty.shape.size a) = fun _ => 0 := funext fun a => by fin_cases a <;> decide
  exact Memref.read_access_unit_zero (Elt Ideal) main_arg7 hz' (fun a => by rw [congrFun hz' a]; simp) (V c main_arg7)

/-- Window 8's block at the one point is its whole array: the index map is zero and the block is the array's size. -/
private theorem blk8 (c : Dev nD) : iblk2 V c 8 t0 = V c main_arg8 := by
  unfold iblk2
  show ((cfg2.win 8).blk t0).view.read (Elt Ideal) (V c main_arg8) = _
  have hz' : (fun a => win2_8.index t0 a * main_arg8.ty.shape.size a) = fun _ => 0 := funext fun a => by fin_cases a; decide
  exact Memref.read_access_unit_zero (Elt Ideal) main_arg8 hz' (fun a => by rw [congrFun hz' a]; simp) (V c main_arg8)

/-- Window 9's block at the one point is its whole array: the index map is zero and the block is the array's size. -/
private theorem blk9 (c : Dev nD) : iblk2 V c 9 t0 = V c main_arg9 := by
  unfold iblk2
  show ((cfg2.win 9).blk t0).view.read (Elt Ideal) (V c main_arg9) = _
  have hz' : (fun a => win2_9.index t0 a * main_arg9.ty.shape.size a) = fun _ => 0 := funext fun a => by fin_cases a <;> decide
  exact Memref.read_access_unit_zero (Elt Ideal) main_arg9 hz' (fun a => by rw [congrFun hz' a]; simp) (V c main_arg9)

/-- Window 10's block at the one point is its whole array: the index map is zero and the block is the array's size. -/
private theorem blk10 (c : Dev nD) : iblk2 V c 10 t0 = V c main_arg10 := by
  unfold iblk2
  show ((cfg2.win 10).blk t0).view.read (Elt Ideal) (V c main_arg10) = _
  have hz' : (fun a => win2_10.index t0 a * main_arg10.ty.shape.size a) = fun _ => 0 := funext fun a => by fin_cases a; decide
  exact Memref.read_access_unit_zero (Elt Ideal) main_arg10 hz' (fun a => by rw [congrFun hz' a]; simp) (V c main_arg10)

/-- The one write-back writes the body's arithmetic of the arrays: the output buffer after the body is the one
    covering store's payload, whose loads read whole buffers holding whole arrays, and block (0, 0) of the result
    array read through zero offsets is the array. -/
private theorem flushed_eq (c : Dev nD) (t : Fin cfg2.N) (hf : (cfg2.win 11).flush t = true) :
    (dat2 V c).flushed 11 t = ((cfg2.win 11).blk t).view.read (Elt Ideal) (mlpEnd V c) := by
  obtain rfl : t = t0 := eq_t0 t
  show (cfg2.win 11).cut (grid2.coords t0) ((dat2 V c).after 11 t0) = _
  rw [after2_11, blk0 V c, blk1 V c, blk2 V c, blk3 V c, blk4 V c, blk5 V c, blk6 V c, blk7 V c, blk8 V c, blk9 V c,
    blk10 V c]
  unfold out2_11
  rw [View.canon_unit_zero hz2]
  simp only [View.ld_unit_zero (S := S512x128) hz2, View.ld_unit_zero (S := S512x32) hz2,
    View.ld_unit_zero (S := S512x64) hz2, View.ld_unit_zero (S := S128x256) hz2, View.ld_unit_zero (S := S32x256) hz2,
    View.ld_unit_zero (S := S64x256) hz2, View.ld_unit_zero (S := S256) hz1, View.ld_unit_zero (S := S256x256) hz2,
    View.ld_unit_zero (S := S256x64) hz2, View.ld_unit_zero (S := S64) hz1]
  have hz' : (fun a => win2_11.index t0 a * main_v22.ty.shape.size a) = fun _ => 0 := funext fun a => by fin_cases a <;> decide
  exact (Memref.read_access_unit_zero (Elt Ideal) main_v22 hz' (fun a => by rw [congrFun hz' a]; simp) (mlpEnd V c)).symm

/-- The result array after the region is what the one store wrote. -/
theorem mlp_final (c : Dev nD) : (dat2 V c).arrAt 11 cfg2.N = mlpEnd V c :=
  (dat2 V c).arrAt_eq_of_cover 11 (mlpEnd V c) (flushed_eq V c) fun i =>
    ⟨t0, flush2_11 t0, by
      show i ∈ ((View.whole main_v22).slice (win2_11.rect t0)).set
      rw [View.set_slice_whole, Rect.mem_set_unit]
      intro a
      have h0 : (i 0 : Nat) < 512 := (i 0).isLt
      have h1 : (i 1 : Nat) < 64 := (i 1).isLt
      match a with
      | ⟨0, _⟩ =>
        show win2_11.index t0 0 * win2_11.size 0 ≤ (i 0 : Nat) ∧ (i 0 : Nat) < win2_11.index t0 0 * win2_11.size 0 + win2_11.xsize (grid2.coords t0) 0
        rw [show win2_11.index t0 0 * win2_11.size 0 = 0 from by decide +kernel, show win2_11.xsize (grid2.coords t0) 0 = 512 from by decide +kernel]; omega
      | ⟨1, _⟩ =>
        show win2_11.index t0 1 * win2_11.size 1 ≤ (i 1 : Nat) ∧ (i 1 : Nat) < win2_11.index t0 1 * win2_11.size 1 + win2_11.xsize (grid2.coords t0) 1
        rw [show win2_11.index t0 1 * win2_11.size 1 = 0 from by decide +kernel, show win2_11.xsize (grid2.coords t0) 1 = 64 from by decide +kernel]; omega⟩

end Cert.KernelIdeal.MlpRun

end
-- ==== Proof.Mlp.lean ====
/-
  The kernel's perceptron is the reference's: over the extended reals a change of float format is the identity, a
  matrix product into a zero accumulator is the host's product, and the three products over the node, edge and
  global columns of the first weight matrix add up to the one product over the features laid side by side.
-/
import proofs.«426386_j69337952026908_1_alg».proof.Proof.Gen.KernelIdeal.Skeleton
import proofs.«426386_j69337952026908_1_alg».proof.Proof.Terms
import proofs.«426386_j69337952026908_1_alg».proof.Proof.LibPlainDot
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Mlp

open Idealize.ShloMosaic Idealize.ShloMosaic.ValueIdx

open scoped BigOperators

/-- A matrix unit's product of two operands narrowed to a shorter format, into a zero accumulator, is the host's
    product of the operands themselves: over the extended reals narrowing changes nothing, and both products are the
    same sum over the contraction index. -/
private theorem matmul_truncf_zero {sl sr so : Shape} (d : DotDims sl sr so) (prec : Option ContractPrecision)
    (l : FVec Ideal sl .f32) (r : FVec Ideal sr .f32) (h1 h2 : FTy.bits .bf16 < FTy.bits .f32) :
    matmul d prec (truncf .bf16 l h1) (truncf .bf16 r h2) (constant so .f32 0x00000000#32)
      = Host.dotGeneral d prec l r := by
  funext j
  show FloatOps.matmul d prec (truncf .bf16 l h1) (truncf .bf16 r h2) (constant so .f32 0x00000000#32) j
    = FloatOps.dotGeneral d prec _ l r j
  rw [Ideal.matmul_constant_zero_apply, Ideal.dotGeneral_apply]
  rfl

/-- A bias of `n` entries laid along each of `m` rows: the kernel's broadcast of its one-row cast is the host's
    two broadcasts, first to one row and then down the rows; both read the bias at the column. -/
private theorem bias_rows {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd : (⟨1, ![n]⟩ : Shape).BroadcastsInDim ⟨2, ![m, n]⟩ ![1])
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) := by
  rw [broadcastTo_row_eq_broadcastInDim b h1 hb hd]
  funext j
  obtain ⟨i, c, rfl⟩ : ∃ (i : Fin m) (c : Fin n), j = ix2 i c := ⟨j 0, j 1, eq_ix2 j⟩
  rw [broadcastInDim_oneRow_apply hd2]
  have hc : c.val = if n = 1 then 0 else c.val := by
    split
    · have := c.isLt; omega
    · rfl
  refine (broadcastInDim_apply ![1] hd b (ix2 i c) (ix1 c) ?_).trans
    (broadcastInDim_apply ![1] hd1 b (ix2 (0 : Fin 1) c) (ix1 c) ?_).symm
  · intro a
    match a with
    | ⟨0, _⟩ => exact hc
  · intro a
    match a with
    | ⟨0, _⟩ => exact hc

/-- A block of whole rows of a matrix, read at (k, c), is the matrix at (first row + k, c). -/
private theorem slice_rows {α : Type} {R K N : Nat} (r₀ : Nat) (W : (⟨2, ![R, N]⟩ : Shape).Idx → α)
    (hs : (⟨2, ![R, N]⟩ : Shape).Slices ![r₀, 0] ⟨2, ![K, N]⟩) (k : Fin K) (c : Fin N) (hk : r₀ + k.val < R) :
    extractStridedSlice ⟨2, ![K, N]⟩ ![r₀, 0] W hs (ix2 k c) = W (ix2 (⟨r₀ + k.val, hk⟩ : Fin R) c) := by
  refine extractStridedSlice_apply ![r₀, 0] W hs (ix2 k c) (ix2 (⟨r₀ + k.val, hk⟩ : Fin R) c) ?_
  intro a
  match a with
  | ⟨0, _⟩ => rfl
  | ⟨1, _⟩ => show c.val = 0 + c.val; omega

/-- A sum over 224 indices is the sum over the first 128, the next 32 and the last 64. -/
private theorem sum_split (f : Fin 224 → EReal) :
    ∑ k : Fin 224, f k = ∑ k : Fin 128, f ⟨k.val, by omega⟩ + ∑ k : Fin 32, f ⟨128 + k.val, by omega⟩
      + ∑ k : Fin 64, f ⟨160 + k.val, by omega⟩ := by
  have e1 := Fin.sum_univ_add (a := 160) (b := 64) f
  have e2 := Fin.sum_univ_add (a := 128) (b := 32) (fun k : Fin 160 => f (Fin.castAdd 64 k))
  exact e1.trans (congrArg (· + _) e2)

/-- The features laid side by side, read at one of the first 128 columns: the node features at that column. -/
private theorem concat_node (nm : FVec Ideal ⟨2, ![512, 128]⟩ .f32) (em : FVec Ideal ⟨2, ![512, 32]⟩ .f32)
    (u : FVec Ideal ⟨2, ![512, 64]⟩ .f32)
    (hc : Shape.Concatenates [⟨2, ![512, 128]⟩, ⟨2, ![512, 32]⟩, ⟨2, ![512, 64]⟩] ⟨2, ![512, 224]⟩ 1)
    (i : Fin 512) (k : Fin 128) :
    concatenate ⟨2, ![512, 224]⟩ 1 [⟨⟨2, ![512, 128]⟩, nm⟩, ⟨⟨2, ![512, 32]⟩, em⟩, ⟨⟨2, ![512, 64]⟩, u⟩] hc
      (ix2 i (⟨k.val, by omega⟩ : Fin 224)) = nm (ix2 i k) := by
  refine concatenate_apply_piece 1 [⟨⟨2, ![512, 128]⟩, nm⟩, ⟨⟨2, ![512, 32]⟩, em⟩, ⟨⟨2, ![512, 64]⟩, u⟩] hc _ 0 (by show (0 : Nat) < 3; omega) _ nm rfl rfl 0 rfl (ix2 i k) ?_ ?_
  · intro b hb
    match b with
    | ⟨0, _⟩ => rfl
    | ⟨1, _⟩ => exact absurd rfl hb
  · show 0 + k.val = k.val
    omega

/-- … at one of the next 32 columns: the edge features at that column, 128 less. -/
private theorem concat_edge (nm : FVec Ideal ⟨2, ![512, 128]⟩ .f32) (em : FVec Ideal ⟨2, ![512, 32]⟩ .f32)
    (u : FVec Ideal ⟨2, ![512, 64]⟩ .f32)
    (hc : Shape.Concatenates [⟨2, ![512, 128]⟩, ⟨2, ![512, 32]⟩, ⟨2, ![512, 64]⟩] ⟨2, ![512, 224]⟩ 1)
    (i : Fin 512) (k : Fin 32) :
    concatenate ⟨2, ![512, 224]⟩ 1 [⟨⟨2, ![512, 128]⟩, nm⟩, ⟨⟨2, ![512, 32]⟩, em⟩, ⟨⟨2, ![512, 64]⟩, u⟩] hc
      (ix2 i (⟨128 + k.val, by omega⟩ : Fin 224)) = em (ix2 i k) := by
  refine concatenate_apply_piece 1 [⟨⟨2, ![512, 128]⟩, nm⟩, ⟨⟨2, ![512, 32]⟩, em⟩, ⟨⟨2, ![512, 64]⟩, u⟩] hc _ 1 (by show (1 : Nat) < 3; omega) _ em rfl rfl 128 rfl (ix2 i k) ?_ ?_
  · intro b hb
    match b with
    | ⟨0, _⟩ => rfl
    | ⟨1, _⟩ => exact absurd rfl hb
  · rfl

/-- … and at one of the last 64 columns: the global features at that column, 160 less. -/
private theorem concat_glob (nm : FVec Ideal ⟨2, ![512, 128]⟩ .f32) (em : FVec Ideal ⟨2, ![512, 32]⟩ .f32)
    (u : FVec Ideal ⟨2, ![512, 64]⟩ .f32)
    (hc : Shape.Concatenates [⟨2, ![512, 128]⟩, ⟨2, ![512, 32]⟩, ⟨2, ![512, 64]⟩] ⟨2, ![512, 224]⟩ 1)
    (i : Fin 512) (k : Fin 64) :
    concatenate ⟨2, ![512, 224]⟩ 1 [⟨⟨2, ![512, 128]⟩, nm⟩, ⟨⟨2, ![512, 32]⟩, em⟩, ⟨⟨2, ![512, 64]⟩, u⟩] hc
      (ix2 i (⟨160 + k.val, by omega⟩ : Fin 224)) = u (ix2 i k) := by
  refine concatenate_apply_piece 1 [⟨⟨2, ![512, 128]⟩, nm⟩, ⟨⟨2, ![512, 32]⟩, em⟩, ⟨⟨2, ![512, 64]⟩, u⟩] hc _ 2 (by show (2 : Nat) < 3; omega) _ u rfl rfl 160 rfl (ix2 i k) ?_ ?_
  · intro b hb
    match b with
    | ⟨0, _⟩ => rfl
    | ⟨1, _⟩ => exact absurd rfl hb
  · rfl

/-- The first layer's product: the three products over the node, edge and global features against the matching rows
    of the first weight matrix add up to the one product of the features laid side by side against the whole matrix,
    the sum over 224 columns splitting as 128 + 32 + 64. -/
private theorem layer1 (nm : FVec Ideal S512x128 .f32) (em : FVec Ideal S512x32 .f32) (u : FVec Ideal S512x64 .f32)
    (W1 : FVec Ideal S224x256 .f32) (hb : FTy.bits .bf16 < FTy.bits .f32)
    (hs0 : S224x256.Slices ![0, 0] S128x256) (hs1 : S224x256.Slices ![128, 0] S32x256)
    (hs2 : S224x256.Slices ![160, 0] S64x256)
    (hc : Shape.Concatenates [S512x128, S512x32, S512x64] Cert.ReferenceIdeal.S512x224 1) :
    addf (addf
        (matmul dot_S512x128_S128x256_S512x256_1_0_0_1_n_n none (truncf .bf16 nm hb)
          (truncf .bf16 (extractStridedSlice S128x256 ![0, 0] W1 hs0) hb) (constant S512x256 .f32 0x00000000#32))
        (matmul dot_S512x32_S32x256_S512x256_1_0_0_1_n_n none (truncf .bf16 em hb)
          (truncf .bf16 (extractStridedSlice S32x256 ![128, 0] W1 hs1) hb) (constant S512x256 .f32 0x00000000#32)))
        (matmul dot_S512x64_S64x256_S512x256_1_0_0_1_n_n none (truncf .bf16 u hb)
          (truncf .bf16 (extractStridedSlice S64x256 ![160, 0] W1 hs2) hb) (constant S512x256 .f32 0x00000000#32))
      = Host.dotGeneral Cert.ReferenceIdeal.dot_S512x224_S224x256_S512x256_1_0_0_1_n_n none
          (concatenate Cert.ReferenceIdeal.S512x224 1 [⟨S512x128, nm⟩, ⟨S512x32, em⟩, ⟨S512x64, u⟩] hc) W1 := by
  funext j
  obtain ⟨i, c, rfl⟩ : ∃ (i : Fin 512) (c : Fin 256), j = ix2 i c := ⟨j 0, j 1, eq_ix2 j⟩
  have e1 := Cert.LibPlainDot.matmul_zero_apply dot_S512x128_S128x256_S512x256_1_0_0_1_n_n rfl rfl rfl rfl rfl rfl none
    (truncf .bf16 nm hb) (truncf .bf16 (extractStridedSlice S128x256 ![0, 0] W1 hs0) hb) i c
  have e2 := Cert.LibPlainDot.matmul_zero_apply dot_S512x32_S32x256_S512x256_1_0_0_1_n_n rfl rfl rfl rfl rfl rfl none
    (truncf .bf16 em hb) (truncf .bf16 (extractStridedSlice S32x256 ![128, 0] W1 hs1) hb) i c
  have e3 := Cert.LibPlainDot.matmul_zero_apply dot_S512x64_S64x256_S512x256_1_0_0_1_n_n rfl rfl rfl rfl rfl rfl none
    (truncf .bf16 u hb) (truncf .bf16 (extractStridedSlice S64x256 ![160, 0] W1 hs2) hb) i c
  have e4 := Cert.LibPlainDot.dotGeneral_apply Cert.ReferenceIdeal.dot_S512x224_S224x256_S512x256_1_0_0_1_n_n
    rfl rfl rfl rfl rfl rfl none
    (concatenate Cert.ReferenceIdeal.S512x224 1 [⟨S512x128, nm⟩, ⟨S512x32, em⟩, ⟨S512x64, u⟩] hc) W1 i c
  refine (congrArg₂ (· + ·) (congrArg₂ (· + ·) e1 e2) e3).trans (Eq.trans ?_ e4.symm)
  rw [sum_split]
  refine congrArg₂ (· + ·) (congrArg₂ (· + ·) ?_ ?_) ?_
  · refine Finset.sum_congr rfl fun k _ => ?_
    show nm (ix2 i k) * extractStridedSlice S128x256 ![0, 0] W1 hs0 (ix2 k c) = _
    rw [slice_rows 0 W1 hs0 k c (by omega), concat_node nm em u hc i k]
    exact congrArg (fun r : Fin 224 => nm (ix2 i k) * W1 (ix2 r c)) (Fin.ext (Nat.zero_add _))
  · refine Finset.sum_congr rfl fun k _ => ?_
    show em (ix2 i k) * extractStridedSlice S32x256 ![128, 0] W1 hs1 (ix2 k c) = _
    rw [slice_rows 128 W1 hs1 k c (by omega), concat_edge nm em u hc i k]
  · refine Finset.sum_congr rfl fun k _ => ?_
    show u (ix2 i k) * extractStridedSlice S64x256 ![160, 0] W1 hs2 (ix2 k c) = _
    rw [slice_rows 160 W1 hs2 k c (by omega), concat_glob nm em u hc i k]

/-- The kernel body's three payloads composed (its stores' value as a function of its loads) are the reference's
    perceptron, when the three weight blocks are the node, edge and global rows of the first weight matrix. -/
theorem mlp_eq (nm : FVec Ideal Cert.KernelIdeal.S512x128 .f32) (em : FVec Ideal Cert.KernelIdeal.S512x32 .f32)
    (u : FVec Ideal Cert.KernelIdeal.S512x64 .f32) (W1 : FVec Ideal Cert.KernelIdeal.S224x256 .f32)
    (b1 : FVec Ideal Cert.KernelIdeal.S256 .f32) (W2 : FVec Ideal Cert.KernelIdeal.S256x256 .f32)
    (b2 : FVec Ideal Cert.KernelIdeal.S256 .f32) (W3 : FVec Ideal Cert.KernelIdeal.S256x64 .f32)
    (b3 : FVec Ideal Cert.KernelIdeal.S64 .f32) :
    Cert.KernelIdeal.Gen.k2_pay1 (F := Ideal)
        (Cert.KernelIdeal.Gen.k2_pay2 (F := Ideal) nm em u
          (extractStridedSlice Cert.KernelIdeal.S128x256 ![0, 0] W1 Cert.KernelIdeal.Facts₀.slices_S224x256_S128x256_0_0)
          (extractStridedSlice Cert.KernelIdeal.S32x256 ![128, 0] W1 Cert.KernelIdeal.Facts₀.slices_S224x256_S32x256_128_0)
          (extractStridedSlice Cert.KernelIdeal.S64x256 ![160, 0] W1 Cert.KernelIdeal.Facts₀.slices_S224x256_S64x256_160_0)
          b1 W2 b2)
        (Cert.KernelIdeal.Gen.k2_pay3 (F := Ideal)) W3 b3
      = Cert.Terms.mlp nm em u W1 b1 W2 b2 W3 b3 := by
  unfold Cert.KernelIdeal.Gen.k2_pay1 Cert.KernelIdeal.Gen.k2_pay2 Cert.KernelIdeal.Gen.k2_pay3 Cert.Terms.mlp
  dsimp only
  simp only [shapeCast_self]
  -- the first layer's three products are the one product over the features laid side by side
  have hL1 := layer1 nm em u W1 Gen.bitsLt_bf16_f32 Facts₀.slices_S224x256_S128x256_0_0
    Facts₀.slices_S224x256_S32x256_128_0 Facts₀.slices_S224x256_S64x256_160_0
    Cert.ReferenceIdeal.Gen.concatenates_S512x128_S512x32_S512x64_S512x224_d1
  -- the three bias rows
  have hB1 := bias_rows b1 Gen.shapeCasts_S256_S1x256 Gen.broadcasts_S1x256_S512x256 (by decide)
    Cert.ReferenceIdeal.Gen.bcast_S256_S1x256_1 Cert.ReferenceIdeal.Gen.bcast_S1x256_S512x256_0_1
  have hB2 := bias_rows b2 Gen.shapeCasts_S256_S1x256 Gen.broadcasts_S1x256_S512x256 (by decide)
    Cert.ReferenceIdeal.Gen.bcast_S256_S1x256_1 Cert.ReferenceIdeal.Gen.bcast_S1x256_S512x256_0_1
  have hB3 := bias_rows b3 Gen.shapeCasts_S64_S1x64 Gen.broadcasts_S1x64_S512x64 (by decide)
    Cert.ReferenceIdeal.Gen.bcast_S64_S1x64_1 Cert.ReferenceIdeal.Gen.bcast_S1x64_S512x64_0_1
  -- the zero the two rectifications compare against
  have hZ : broadcast S512x256 (FloatOps.ofBits (F := Ideal) .f32 0x00000000#32)
      = broadcastInDim Cert.ReferenceIdeal.S512x256 ![] Cert.ReferenceIdeal.Gen.bcast_S_S512x256
          (constant (F := Ideal) Cert.ReferenceIdeal.S_ .f32 0x00000000#32) := by
    funext j; rfl
  rw [hL1, hB1, hB2, hB3, hZ]
  -- the second and third layers' products
  rw [matmul_truncf_zero, matmul_truncf_zero]
  rfl

end Cert.KernelIdeal.Mlp

end
-- ==== Proof.KernelValue.lean ====
/-
  The kernel program's result as a value: the perceptron region's one store, whose inputs are the two means the host
  stretches form from what the two segment-sum regions leave, the global features, and the weight matrices (the first
  one cut into its node, edge and global rows) — which, where every source-node index is in range, is the reference's
  value of the same arguments.
-/
import proofs.«426386_j69337952026908_1_alg».proof.Proof.NodeRun
import proofs.«426386_j69337952026908_1_alg».proof.Proof.EdgeRun
import proofs.«426386_j69337952026908_1_alg».proof.Proof.MlpRun
import proofs.«426386_j69337952026908_1_alg».proof.Proof.Mlp

set_option maxRecDepth 16384

noncomputable section

namespace Cert.KernelIdeal.KernelValue

open Idealize.ShloMosaic Idealize.ShloMosaic.TcCoe Idealize.SL.Sem Idealize.ShloMosaic.Tactic Idealize.ShloMosaic.StableHlo
open Cert.KernelIdeal Cert.KernelIdeal.Gen
open Idealize.ShloMosaic.ValueIdx

variable (m : (ℓ : Loc nD τ sig) → Buf (Elt Ideal) ℓ) (ρ : Dev nD → PrngReg)

/-! ## The arguments reach the last region as launched -/

theorem main_arg3_entry (c : Dev nD) : W13 m ρ c (Proc.devRef .tc main_arg3) = m ((c : Thread nD τ).loc main_arg3) := by
  have e1 : W13 m ρ c (Proc.devRef .tc main_arg3) = W12 m ρ c (Proc.devRef .tc main_arg3) := by after_results
  have e2 : W11 m ρ c (Proc.devRef .tc main_arg3) = W7 m ρ c (Proc.devRef .tc main_arg3) := by after_results
  have e3 : W6 m ρ c (Proc.devRef .tc main_arg3) = m ((c : Thread nD τ).loc main_arg3) := by after_results
  rw [e1, W12_of_ne m ρ c main_arg3 (by decide), e2, W7_of_ne m ρ c main_arg3 (by decide), e3]

theorem main_arg5_entry (c : Dev nD) : W13 m ρ c (Proc.devRef .tc main_arg5) = m ((c : Thread nD τ).loc main_arg5) := by
  have e1 : W13 m ρ c (Proc.devRef .tc main_arg5) = W12 m ρ c (Proc.devRef .tc main_arg5) := by after_results
  have e2 : W11 m ρ c (Proc.devRef .tc main_arg5) = W7 m ρ c (Proc.devRef .tc main_arg5) := by after_results
  have e3 : W6 m ρ c (Proc.devRef .tc main_arg5) = m ((c : Thread nD τ).loc main_arg5) := by after_results
  rw [e1, W12_of_ne m ρ c main_arg5 (by decide), e2, W7_of_ne m ρ c main_arg5 (by decide), e3]

theorem main_arg6_entry (c : Dev nD) : W13 m ρ c (Proc.devRef .tc main_arg6) = m ((c : Thread nD τ).loc main_arg6) := by
  have e1 : W13 m ρ c (Proc.devRef .tc main_arg6) = W12 m ρ c (Proc.devRef .tc main_arg6) := by after_results
  have e2 : W11 m ρ c (Proc.devRef .tc main_arg6) = W7 m ρ c (Proc.devRef .tc main_arg6) := by after_results
  have e3 : W6 m ρ c (Proc.devRef .tc main_arg6) = m ((c : Thread nD τ).loc main_arg6) := by after_results
  rw [e1, W12_of_ne m ρ c main_arg6 (by decide), e2, W7_of_ne m ρ c main_arg6 (by decide), e3]

theorem main_arg7_entry (c : Dev nD) : W13 m ρ c (Proc.devRef .tc main_arg7) = m ((c : Thread nD τ).loc main_arg7) := by
  have e1 : W13 m ρ c (Proc.devRef .tc main_arg7) = W12 m ρ c (Proc.devRef .tc main_arg7) := by after_results
  have e2 : W11 m ρ c (Proc.devRef .tc main_arg7) = W7 m ρ c (Proc.devRef .tc main_arg7) := by after_results
  have e3 : W6 m ρ c (Proc.devRef .tc main_arg7) = m ((c : Thread nD τ).loc main_arg7) := by after_results
  rw [e1, W12_of_ne m ρ c main_arg7 (by decide), e2, W7_of_ne m ρ c main_arg7 (by decide), e3]

theorem main_arg8_entry (c : Dev nD) : W13 m ρ c (Proc.devRef .tc main_arg8) = m ((c : Thread nD τ).loc main_arg8) := by
  have e1 : W13 m ρ c (Proc.devRef .tc main_arg8) = W12 m ρ c (Proc.devRef .tc main_arg8) := by after_results
  have e2 : W11 m ρ c (Proc.devRef .tc main_arg8) = W7 m ρ c (Proc.devRef .tc main_arg8) := by after_results
  have e3 : W6 m ρ c (Proc.devRef .tc main_arg8) = m ((c : Thread nD τ).loc main_arg8) := by after_results
  rw [e1, W12_of_ne m ρ c main_arg8 (by decide), e2, W7_of_ne m ρ c main_arg8 (by decide), e3]

theorem main_arg9_entry (c : Dev nD) : W13 m ρ c (Proc.devRef .tc main_arg9) = m ((c : Thread nD τ).loc main_arg9) := by
  have e1 : W13 m ρ c (Proc.devRef .tc main_arg9) = W12 m ρ c (Proc.devRef .tc main_arg9) := by after_results
  have e2 : W11 m ρ c (Proc.devRef .tc main_arg9) = W7 m ρ c (Proc.devRef .tc main_arg9) := by after_results
  have e3 : W6 m ρ c (Proc.devRef .tc main_arg9) = m ((c : Thread nD τ).loc main_arg9) := by after_results
  rw [e1, W12_of_ne m ρ c main_arg9 (by decide), e2, W7_of_ne m ρ c main_arg9 (by decide), e3]

theorem main_arg10_entry (c : Dev nD) : W13 m ρ c (Proc.devRef .tc main_arg10) = m ((c : Thread nD τ).loc main_arg10) := by
  have e1 : W13 m ρ c (Proc.devRef .tc main_arg10) = W12 m ρ c (Proc.devRef .tc main_arg10) := by after_results
  have e2 : W11 m ρ c (Proc.devRef .tc main_arg10) = W7 m ρ c (Proc.devRef .tc main_arg10) := by after_results
  have e3 : W6 m ρ c (Proc.devRef .tc main_arg10) = m ((c : Thread nD τ).loc main_arg10) := by after_results
  rw [e1, W12_of_ne m ρ c main_arg10 (by decide), e2, W7_of_ne m ρ c main_arg10 (by decide), e3]

/-! ## The means and the weight blocks at the last region's entry -/

/-- The node mean at the last region's entry: what the first region left, summed rows over counts floored at one. -/
theorem node_mean_entry (c : Dev nD) :
    W13 m ρ c (Proc.devRef .tc main_v10)
      = Cert.Terms.mean128 (F := Ideal) (W7 m ρ c (Proc.devRef .tc main_v5_0)) (W7 m ρ c (Proc.devRef .tc main_v5_1)) := by
  have e1 : W13 m ρ c (Proc.devRef .tc main_v10) = W12 m ρ c (Proc.devRef .tc main_v10) := by after_results
  have e2 : W11 m ρ c (Proc.devRef .tc main_v10)
      = Cert.Terms.mean128 (F := Ideal) (W7 m ρ c (Proc.devRef .tc main_v5_0)) (W7 m ρ c (Proc.devRef .tc main_v5_1)) := by
    dsimp only [W11, W10, W9, W8]
    after_results
    rfl
  rw [e1, W12_of_ne m ρ c main_v10 (by decide), e2]

/-- The edge mean at the last region's entry. -/
theorem edge_mean_entry (c : Dev nD) :
    W13 m ρ c (Proc.devRef .tc main_v18)
      = Cert.Terms.mean32 (F := Ideal) (W12 m ρ c (Proc.devRef .tc main_v13_0)) (W12 m ρ c (Proc.devRef .tc main_v13_1)) := by
  dsimp only [W13]
  after_results
  rfl

/-- The first weight matrix as launched, just before the last host stretch cuts it. -/
theorem w1_before (c : Dev nD) : W12 m ρ c (Proc.devRef .tc main_arg5) = m ((c : Thread nD τ).loc main_arg5) := by
  have e2 : W11 m ρ c (Proc.devRef .tc main_arg5) = W7 m ρ c (Proc.devRef .tc main_arg5) := by after_results
  have e3 : W6 m ρ c (Proc.devRef .tc main_arg5) = m ((c : Thread nD τ).loc main_arg5) := by after_results
  rw [W12_of_ne m ρ c main_arg5 (by decide), e2, W7_of_ne m ρ c main_arg5 (by decide), e3]

theorem w1n_entry (c : Dev nD) :
    W13 m ρ c (Proc.devRef .tc main_v19)
      = extractStridedSlice S128x256 ![0, 0] (m ((c : Thread nD τ).loc main_arg5)) slices_S224x256_S128x256_0_0 := by
  have e : W13 m ρ c (Proc.devRef .tc main_v19)
      = extractStridedSlice S128x256 ![0, 0] (W12 m ρ c (Proc.devRef .tc main_arg5)) slices_S224x256_S128x256_0_0 := by
    dsimp only [W13]
    after_results
  rw [e, w1_before]

theorem w1e_entry (c : Dev nD) :
    W13 m ρ c (Proc.devRef .tc main_v20)
      = extractStridedSlice S32x256 ![128, 0] (m ((c : Thread nD τ).loc main_arg5)) slices_S224x256_S32x256_128_0 := by
  have e : W13 m ρ c (Proc.devRef .tc main_v20)
      = extractStridedSlice S32x256 ![128, 0] (W12 m ρ c (Proc.devRef .tc main_arg5)) slices_S224x256_S32x256_128_0 := by
    dsimp only [W13]
    after_results
  rw [e, w1_before]

theorem w1u_entry (c : Dev nD) :
    W13 m ρ c (Proc.devRef .tc main_v21)
      = extractStridedSlice S64x256 ![160, 0] (m ((c : Thread nD τ).loc main_arg5)) slices_S224x256_S64x256_160_0 := by
  have e : W13 m ρ c (Proc.devRef .tc main_v21)
      = extractStridedSlice S64x256 ![160, 0] (W12 m ρ c (Proc.devRef .tc main_arg5)) slices_S224x256_S64x256_160_0 := by
    dsimp only [W13]
    after_results
  rw [e, w1_before]

/-! ## The result -/

/-- Where every source-node index is in range, the kernel program's result buffer ends at the reference's value. -/
theorem value (c : Dev nD) (hr : Cert.IndexRange.InRange (m ((c : Thread nD τ).loc main_arg1))) :
    W14 m ρ c (Proc.devRef .tc main_v22)
      = Cert.Terms.out (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  rw [show W14 m ρ c (Proc.devRef .tc main_v22) = (dat2 (V13 m ρ) c).arrAt 11 cfg2.N from W14_arr m ρ c 11,
    Cert.KernelIdeal.MlpRun.mlp_final]
  show k2_pay1 (F := Ideal)
      (k2_pay2 (F := Ideal) (W13 m ρ c (Proc.devRef .tc main_v10)) (W13 m ρ c (Proc.devRef .tc main_v18))
        (W13 m ρ c (Proc.devRef .tc main_arg3)) (W13 m ρ c (Proc.devRef .tc main_v19)) (W13 m ρ c (Proc.devRef .tc main_v20))
        (W13 m ρ c (Proc.devRef .tc main_v21)) (W13 m ρ c (Proc.devRef .tc main_arg6)) (W13 m ρ c (Proc.devRef .tc main_arg7))
        (W13 m ρ c (Proc.devRef .tc main_arg8)))
      (k2_pay3 (F := Ideal)) (W13 m ρ c (Proc.devRef .tc main_arg9)) (W13 m ρ c (Proc.devRef .tc main_arg10)) = _
  rw [node_mean_entry, edge_mean_entry, main_arg3_entry, w1n_entry, w1e_entry, w1u_entry, main_arg6_entry, main_arg7_entry,
    main_arg8_entry, main_arg9_entry, main_arg10_entry,
    Cert.KernelIdeal.NodeRun.node_sums, Cert.KernelIdeal.NodeRun.node_cnts,
    Cert.KernelIdeal.EdgeRun.edge_sums m ρ c hr, Cert.KernelIdeal.EdgeRun.edge_cnts m ρ c hr]
  exact Cert.KernelIdeal.Mlp.mlp_eq _ _ _ _ _ _ _ _ _

end Cert.KernelIdeal.KernelValue

end
-- ==== Proof.RefValue.lean ====
/-
  The reference's result is `Terms.out` of its arguments: the program applies exactly the operations the pieces spell.
-/
import proofs.«426386_j69337952026908_1_alg».proof.Proof.Gen.ReferenceIdeal.Run
import proofs.«426386_j69337952026908_1_alg».proof.Proof.Terms

set_option maxRecDepth 16384

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

/-- The run's composed term is the perceptron over the two segment means and the global features. -/
theorem res_eq (m : (ℓ : Loc nD τ sig) → Buf (Elt F) ℓ) (c : Dev nD) :
    Cert.ReferenceIdeal.Value.res_main_v47 m c
      = Cert.Terms.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.ReferenceIdeal.Value.res_main_v47 Cert.Terms.out Cert.Terms.mlp Cert.Terms.mean128 Cert.Terms.mean32
    Cert.Terms.nodeSum Cert.Terms.nodeCnt Cert.Terms.edgeSum Cert.Terms.edgeCnt Cert.Terms.edgeSeg Cert.Terms.srcNode
  rfl

end Cert.ReferenceIdeal.RefValue

end
-- ==== Proof.lean ====
/-
  The certificate's claim. The kernel program computes, for each of 512 graphs, the mean feature row of its nodes and
  of its edges — each as a sum over row blocks of a one-hot mask times the rows, on a grid that accumulates in place,
  divided by the count floored at one — and feeds the two means and the global features through a three-layer
  perceptron whose first weight matrix it has cut into its node, edge and global rows. The reference scatter-adds the
  rows into their graphs, divides the same way, lays the three feature groups side by side and multiplies by the whole
  first weight matrix. Over the extended reals the two agree: a one-hot weighted sum over all padded rows is the sum
  of the rows of one graph (padding rows carry the id -1, which is no graph); the three partial products add up to the
  one product; a change of float format is the identity. An edge belongs to the graph of its source node, which the
  kernel reads with jnp.take (the least integer outside the range, hence no graph) and the reference by indexing
  (clamped outside the range): they agree where every source-node index e has -100000 ≤ e < 100000, which the
  precondition states beside the finiteness of the float inputs.

  The three frames: the two kernel programs' are the generated frame certificates; the reference's is its generated
  run with the result dropped. The idealization rewrote nothing, so `preserves` is trivial.
-/
import proofs.«426386_j69337952026908_1_alg».proof.Defs
import proofs.«426386_j69337952026908_1_alg».proof.Proof.Gen.Kernel
import proofs.«426386_j69337952026908_1_alg».proof.Proof.Gen.Kernel.Skeleton
import proofs.«426386_j69337952026908_1_alg».proof.Proof.Gen.Kernel.Launch
import proofs.«426386_j69337952026908_1_alg».proof.Proof.Gen.Kernel.Points
import proofs.«426386_j69337952026908_1_alg».proof.Proof.Gen.Kernel.Frame
import proofs.«426386_j69337952026908_1_alg».proof.Proof.Gen.KernelIdeal
import proofs.«426386_j69337952026908_1_alg».proof.Proof.Gen.KernelIdeal.Skeleton
import proofs.«426386_j69337952026908_1_alg».proof.Proof.Gen.KernelIdeal.Launch
import proofs.«426386_j69337952026908_1_alg».proof.Proof.Gen.KernelIdeal.Points
import proofs.«426386_j69337952026908_1_alg».proof.Proof.Gen.KernelIdeal.Frame
import proofs.«426386_j69337952026908_1_alg».proof.Proof.Gen.ReferenceIdeal
import proofs.«426386_j69337952026908_1_alg».proof.Proof.Gen.ReferenceIdeal.Run
import proofs.«426386_j69337952026908_1_alg».proof.Proof.Gen.Pre_finite_inputs
import proofs.«426386_j69337952026908_1_alg».proof.Proof.KernelRun
import proofs.«426386_j69337952026908_1_alg».proof.Proof.KernelValue
import proofs.«426386_j69337952026908_1_alg».proof.Proof.RefValue
import proofs.«426386_j69337952026908_1_alg».proof.Proof.IndexRange
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the perceptron over the two segment means and the global features of the arguments: the
    kernel by its three regions read as values (the source-node indices in range by the precondition), the reference
    by its own composed term. -/
theorem algebraic : Cert.algebraic_KernelIdeal_ReferenceIdeal := by
  intro m ρ m' ρ' hpre hagree
  refine ⟨fun c => Cert.KernelIdeal.Gen.W14 m ρ c (Proc.devRef .tc Cert.KernelIdeal.main_v22),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.RefValue.res_eq, a0, a1, a2, a3, a4, a5, a6, a7, a8, a9, a10]
  exact (Cert.KernelIdeal.KernelValue.value m ρ c (Cert.IndexRange.range_of_pre m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
